-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : IVec S65536 32) (main_arg2 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg2
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  main_v12
-- ==== Kernel.lean ====
abbrev S65536x512 : Shape := ⟨2, ![65536, 512]⟩
abbrev S65536 : Shape := ⟨1, ![65536]⟩
abbrev S1x65536 : Shape := ⟨2, ![1, 65536]⟩
abbrev S2x1024x512 : Shape := ⟨3, ![2, 1024, 512]⟩
abbrev S2048x512 : Shape := ⟨2, ![2048, 512]⟩
abbrev S1x2048 : Shape := ⟨2, ![1, 2048]⟩
abbrev S1x1024x512 : Shape := ⟨3, ![1, 1024, 512]⟩
abbrev S1024x512 : Shape := ⟨2, ![1024, 512]⟩
abbrev S1024x1 : Shape := ⟨2, ![1024, 1]⟩
abbrev S1024x2048 : Shape := ⟨2, ![1024, 2048]⟩
abbrev S_ : Shape := ⟨0, ![]⟩
abbrev S1024 : Shape := ⟨1, ![1024]⟩
abbrev S65536x1 : Shape := ⟨2, ![65536, 1]⟩
abbrev S1x1024 : Shape := ⟨2, ![1, 1024]⟩
abbrev S65536x1024 : Shape := ⟨2, ![65536, 1024]⟩
abbrev S1024x1024 : Shape := ⟨2, ![1024, 1024]⟩

abbrev nBuf : Space → Nat
  | .hbm => 42
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S65536x512, .f32⟩
  | .hbm, ⟨3, _⟩ => ⟨S1x65536, .i32⟩
  | .hbm, ⟨4, _⟩ => ⟨S2x1024x512, .f32⟩
  | .hbm, ⟨5, _⟩ => ⟨S1x1024x512, .f32⟩
  | .hbm, ⟨6, _⟩ => ⟨S1024x512, .f32⟩
  | .hbm, ⟨7, _⟩ => ⟨S1x1024x512, .f32⟩
  | .hbm, ⟨8, _⟩ => ⟨S1024x512, .f32⟩
  | .hbm, ⟨9, _⟩ => ⟨S1024x512, .f32⟩
  | .hbm, ⟨10, _⟩ => ⟨S_, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S_, .i32⟩
  | .hbm, ⟨25, _⟩ => ⟨S65536, .i32⟩
  | .hbm, ⟨26, _⟩ => ⟨S1024, .i32⟩
  | .hbm, ⟨27, _⟩ => ⟨S1024, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x512, .f32⟩
  | .hbm, ⟨33, _⟩ => ⟨S1024x512, .f32⟩
  | .hbm, ⟨34, _⟩ => ⟨S1024x512, .bf16⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S1x1024, .f32⟩
  | .hbm, ⟨41, _⟩ => ⟨S65536x1024, .f32⟩
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S65536_S1x65536 : S65536.ShapeCasts S1x65536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1_d0_w32 : S1024x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  slices_S2x1024x512_S1x1024x512_0_0_0 : S2x1024x512.Slices ![0, 0, 0] S1x1024x512
  slices_S2x1024x512_S1x1024x512_1_0_0 : S2x1024x512.Slices ![1, 0, 0] S1x1024x512
  bcast_S_S1024 : S_.BroadcastsInDim S1024 (![] : Fin 0 → Fin S1024.rank)
  bcast_S_S65536 : S_.BroadcastsInDim S65536 (![] : Fin 0 → Fin S65536.rank)
  bcast_S65536_S65536x1_0 : S65536.BroadcastsInDim S65536x1 (![0] : Fin 1 → Fin S65536x1.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S1024x512_S1024_d1 : S1024x512.ReducesTo [1] S1024
  h_S_ : 0 < S_.numel
  transposes_S1024x1_S1x1024_1_0 : S1024x1.Transposes [1, 0] S1x1024
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x2048_S2048x512_S1024x512_1_0_0_1_n_n_wf : DotDims.WF S1024x2048 S2048x512 S1024x512 [1] [0] [0] [1] [] []
  scatter_S1024_S65536x1_S65536_n_0_0_1_wf : ScatterDims.WF S1024 S65536x1 S65536 [] [0] [0] 1
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x65536.size a
  hwx0_1 : ∀ i : grid0.Coords, EltTy.bits .i32 = 32 ∨ (Rect.block (s := S1x65536) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .f32 = 32 ∨ (Rect.block (s := S65536x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S65536x1024.size a
  hwx1_3 : ∀ i : grid1.Coords, EltTy.bits .f32 = 32 ∨ (Rect.block (s := S65536x1024) S1024x1024.size (cc1_transform_3 i) (hinb1_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x512 : Shape := ⟨2, ![65536, 512]⟩
abbrev S65536 : Shape := ⟨1, ![65536]⟩
abbrev S_ : Shape := ⟨0, ![]⟩
abbrev S1024x512 : Shape := ⟨2, ![1024, 512]⟩
abbrev S65536x1 : Shape := ⟨2, ![65536, 1]⟩
abbrev S1024 : Shape := ⟨1, ![1024]⟩
abbrev S1024x1 : Shape := ⟨2, ![1024, 1]⟩
abbrev S1x1024 : Shape := ⟨2, ![1, 1024]⟩
abbrev S65536x1024 : Shape := ⟨2, ![65536, 1024]⟩

abbrev nBuf : Space → Nat
  | .hbm => 38
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S65536x512, .f32⟩
  | .hbm, ⟨3, _⟩ => ⟨S_, .f32⟩
  | .hbm, ⟨4, _⟩ => ⟨S1024x512, .f32⟩
  | .hbm, ⟨5, _⟩ => ⟨S65536x1, .i32⟩
  | .hbm, ⟨6, _⟩ => ⟨S1024x512, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S1024, .f32⟩
  | .hbm, ⟨11, _⟩ => ⟨S65536x1, .i32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1, .f32⟩
  | .hbm, ⟨17, _⟩ => ⟨S1024x512, .f32⟩
  | .hbm, ⟨18, _⟩ => ⟨S1024x512, .f32⟩
  | .hbm, ⟨19, _⟩ => ⟨S65536x512, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S1024x512, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  reducesTo_S65536x512_S65536_d1 : S65536x512.ReducesTo [1] S65536
  h_S_ : 0 < S_.numel
  reducesTo_S1024x512_S1024_d1 : S1024x512.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  scatter_S1024x512_S65536x1_S65536x512_1_0_0_1_wf : ScatterDims.WF S1024x512 S65536x1 S65536x512 [1] [0] [0] 1
  scatter_S1024_S65536x1_S65536_n_0_0_1_wf : ScatterDims.WF S1024 S65536x1 S65536 [] [0] [0] 1
  dot_S65536x512_S1024x512_S65536x1024_1_1_0_0_n_n_wf : DotDims.WF S65536x512 S1024x512 S65536x1024 [1] [1] [0] [0] [] []

variable [Facts₀]

def scatter_S1024x512_S65536x1_S65536x512_1_0_0_1 : ScatterDims S1024x512 S65536x1 S65536x512 where
  updateWindowDims := [1]
  insertedWindowDims := [0]
  scatterDimsToOperandDims := [0]
  indexVectorDim := 1
  wf := scatter_S1024x512_S65536x1_S65536x512_1_0_0_1_wf
def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf

class Facts : Prop extends Facts₀ where

variable [Facts]
-- ==== Proof.R0Runs.lean ====
/-
  Region 0 (the per-class partial sums), the kernel body run once per control case.
  The body keeps a running sum in its scratch: at the first tile of a core's row of the grid it
  clears the scratch and adds the tile's contribution; at a middle tile it adds the tile's
  contribution to what the scratch held; at the last tile it does the same and then copies the
  scratch into the output block. A tile's contribution is the product of the one-hot class matrix
  of the tile's labels with the tile's feature rows. Each case is stated with the scratch's (and the
  output block's) contents after the body as the kernel's own payload terms of what the body loaded.
-/
import proofs.«401434_j37297495999027_3_alg».proof.Proof.Gen.KernelIdeal.Launch
import proofs.«401434_j37297495999027_3_alg».proof.Proof.Gen.KernelIdeal.Skeleton
import proofs.«401434_j37297495999027_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The body's first condition: the point is the first tile of its core's row (second grid coordinate 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The body's second condition: the point is the last tile of its core's row (second grid coordinate 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a row's last tile the output window is idle (nothing is stored into it) and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a row's last tile the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
/-- The running-sum scratch, a whole scoped buffer of the kernel's own. -/
abbrev scM0 : Memref sig .tc .vmem S1024x512 .f32 := Memref.whole cc0_scratch0

/-- The scoped buffers of the core that region 0 neither stages through nor uses: the second region's staging buffers. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of region 0 spelt out: the scratch at some contents, the other scoped buffers, the generator register. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA; rw [scopedRest0_eq]; simp only [scM0, owns_whole]; try rfl

/-! ## The body's accesses: each a whole buffer -/
abbrev rZ : Rect S2048x512 := Rect.unit (s := S2048x512) ![0, 0] S2048x512.size inb_S2048x512_S2048x512_0_0
abbrev rY : Rect S1x2048 := Rect.unit (s := S1x2048) ![0, 0] S1x2048.size inb_S1x2048_S1x2048_0_0
abbrev rS : Rect S1024x512 := Rect.unit (s := S1024x512) ![0, 0] S1024x512.size inb_S1024x512_S1024x512_0_0
abbrev rO : Rect S1x1024x512 := Rect.unit (s := S1x1024x512) ![0, 0, 0] S1x1024x512.size inb_S1x1024x512_S1x1024x512_0_0_0

theorem coverS (p : Vec F S1024x512 .f32) (y : S1024x512.Idx) :
    ∃ pc ∈ ([⟨rS, p⟩] : List (View.Piece (Elt F) S1024x512 .f32)), y ∈ pc.1.set :=
  View.cover_of_tiled [⟨rS, p⟩] S1024x512.size (by rfl) y
theorem coverO (p : Vec F S1x1024x512 .f32) (y : S1x1024x512.Idx) :
    ∃ pc ∈ ([⟨rO, p⟩] : List (View.Piece (Elt F) S1x1024x512 .f32)), y ∈ pc.1.set :=
  View.cover_of_tiled [⟨rO, p⟩] S1x1024x512.size (by rfl) y

theorem coverS2 (p q : Vec F S1024x512 .f32) (y : S1024x512.Idx) :
    ∃ pc ∈ ([⟨rS, p⟩, ⟨rS, q⟩] : List (View.Piece (Elt F) S1024x512 .f32)), y ∈ pc.1.set :=
  let ⟨pc, hm, hy⟩ := coverS p y; ⟨pc, List.mem_cons.2 (Or.inl (List.mem_singleton.1 hm)), hy⟩

/-! ## The body, case by case -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- A middle tile: the scratch holds `xs`; afterwards it holds `xs` plus the tile's contribution. The output buffer is not touched. -/
theorem run0_B (c : Dev nD) (i : grid0.Coords) (hc0 : ¬cond0_0 i) (hc1 : ¬cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x1 x0 xs)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (coverS _), View.canon_unit_zero hz2]
  simp only [View.readAt_eq_ld, harg2.read_unread, harg3.read_unread, harg5.read_unread, View.ld_unit_zero (S := S2048x512) hz2, View.ld_unit_zero (S := S1x2048) hz2, View.ld_unit_zero (S := S1024x512) hz2]

set_option maxHeartbeats 2000000 in
/-- A row's first tile: whatever the scratch held, afterwards it holds the tile's contribution added to zero. The output buffer is not touched. -/
theorem run0_A (c : Dev nD) (i : grid0.Coords) (hc0 : cond0_0 i) (hc1 : ¬cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x1 x0 k0_pay1)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (coverS2 _ _), View.canon_cons_unit_zero (S := S1024x512) hz2, View.readCov_unit_zero (S := S1024x512) _ hz2]
  simp only [View.readAt_eq_ld, harg2.read_unread, harg3.read_unread, harg5.read_unread, View.ld_unit_zero (S := S2048x512) hz2, View.ld_unit_zero (S := S1x2048) hz2, View.ld_unit_zero (S := S1024x512) hz2]

set_option maxHeartbeats 2000000 in
/-- A row's last tile: the scratch gains the tile's contribution, and the output buffer receives a copy of the scratch. -/
theorem run0_C (c : Dev nD) (i : grid0.Coords) (hc0 : ¬cond0_0 i) (hc1 : cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x1 x0 xs)) ∗ owns (c : Thread nD τ) arg5 fullShare (k0_pay2 x1 x0 xs)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverO _), View.canon_unit_zero hz3, View.readCov_unit_zero (S := S1024x512) _ hz2]
    simp only [View.readAt_eq_ld, harg2.read_unread, harg3.read_unread, harg5.read_unread, View.ld_unit_zero (S := S2048x512) hz2, View.ld_unit_zero (S := S1x2048) hz2, View.ld_unit_zero (S := S1024x512) hz2]
  iexists _; isplitr
  swap; · iexact HS
  ipureintro
  sl_unfold_words
  rw [View.read_writes_eq_canon _ _ _ (coverS _), View.canon_unit_zero hz2]
  simp only [View.readAt_eq_ld, harg2.read_unread, harg3.read_unread, harg5.read_unread, View.ld_unit_zero (S := S2048x512) hz2, View.ld_unit_zero (S := S1x2048) hz2, View.ld_unit_zero (S := S1024x512) hz2]

end Cert.KernelIdeal.Hand

end
-- ==== Proof.R0Dat.lean ====
/-
  Region 0 (the per-class partial sums): the running sum point by point, and the pipeline's proof data.
  The grid is 2 rows of 16 tiles. After the body at a point the scratch holds the sum of the
  contributions of the tiles of the current row up to this one (the row's first tile starts the sum
  again from zero); at a row's last tile the output block receives that sum. Between points the
  invariant holds the scratch at the running sum (at anything before the first point).
-/
import proofs.«401434_j37297495999027_3_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sum -/

/-- What the scratch holds after the body at position `n`: the tile's contribution added to zero at a row's first
    tile, to what the position before left otherwise. -/
def accAt0 (c : Dev nD) : (n : ℕ) → n < cfg0.N → Vec F S1024x512 .f32
  | 0, hn => k0_pay2 (iblk0 V c 1 ⟨0, hn⟩) (iblk0 V c 0 ⟨0, hn⟩) k0_pay1
  | n + 1, hn =>
    if (n + 1) % 16 = 0 then k0_pay2 (iblk0 V c 1 ⟨n + 1, hn⟩) (iblk0 V c 0 ⟨n + 1, hn⟩) k0_pay1
    else k0_pay2 (iblk0 V c 1 ⟨n + 1, hn⟩) (iblk0 V c 0 ⟨n + 1, hn⟩) (accAt0 c n (Nat.lt_of_succ_lt hn))

theorem accAt0_first (c : Dev nD) (t : Fin cfg0.N) (h : t.val % 16 = 0) :
    accAt0 V c t.val t.isLt = k0_pay2 (iblk0 V c 1 t) (iblk0 V c 0 t) k0_pay1 := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (iblk0 V c 1 t) (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position `n`: the class's invariant before the first point (the scratch at anything); afterwards the
    scratch at the running sum the position before left, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ otherScoped0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block, the output's at the running sum (consulted only at a row's last tile, where it is
    stored); the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the inputs' memrefs hold
    their blocks; the invariant hands over the scratch at what the point before left (at anything at the first point)
    and takes it back at this point's running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    have c0 : cond0_0 (grid0.coords t) := (hcond0_0 t).mpr h0
    have c1 : ¬cond0_1 (grid0.coords t) := fun h => h1 ((hcond0_1 t).mp h)
    rw [Dat.leavesExact_idle (dat0 V c) 2 t (idleAt0_2 t c1) (noFlush0_2 t c1)]
    rw [accAt0_first V c t h0]
    by_cases hz : t.val = 0
    · rw [PhiS0_castSucc V c t, PhiS0_zero V c _ _ hz, PhiA0_eq]
      iintro ⟨⟨⟨⟨%ds, HS⟩, Hother⟩, Hg⟩, Ho, ⟨%d0, H0⟩, ⟨%d1, H1⟩, ⟨%d2, H2⟩⟩
      iapply (run0_A c (grid0.coords t) c0 c1 _ _ _ _ _ _ _ _ (iblk0 V c 0 t) (iblk0 V c 1 t) _ ds Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hother⟩, Hg⟩, Ho, ⟨%d0, H0⟩, ⟨%d1, H1⟩, ⟨%d2, H2⟩⟩
      iapply (run0_A c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2
  · have hz : t.val ≠ 0 := fun h => h0 (by rw [h])
    have c0 : ¬cond0_0 (grid0.coords t) := fun h => h0 ((hcond0_0 t).mp h)
    rw [accAt0_next V c t h0]
    rw [PhiS0_castSucc V c t, PhiS0_pos V c _ _ hz]
    by_cases h1 : t.val % 16 = 15
    · have c1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t c1], after0_2, accAt0_next V c t h0]
      iintro ⟨⟨⟨HS, Hother⟩, Hg⟩, Ho, ⟨%d0, H0⟩, ⟨%d1, H1⟩, ⟨%d2, H2⟩⟩
      iapply (run0_C c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexact H2
    · have c1 : ¬cond0_1 (grid0.coords t) := fun h => h1 ((hcond0_1 t).mp h)
      rw [Dat.leavesExact_idle (dat0 V c) 2 t (idleAt0_2 t c1) (noFlush0_2 t c1)]
      iintro ⟨⟨⟨HS, Hother⟩, Hg⟩, Ho, ⟨%d0, H0⟩, ⟨%d1, H1⟩, ⟨%d2, H2⟩⟩
      iapply (run0_B c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hother⟩, Hg⟩
  isplitl [HS Hother]
  · isplitl [HS]
    · iexists _; iexact HS
    iexact Hother
  iexact Hg

end Cert.KernelIdeal.Hand

end
-- ==== Proof.R1.lean ====
/-
  Region 1 (the logits): a pointwise-in-the-grid kernel. At each of the 64 points it loads a tile of
  1024 query rows, the whole prototype table and the row of prototype squared norms, and stores the
  tile of logits 2·(q·pᵀ) − 1·‖q‖² − 1·‖p‖² whole. Stated at the contents `V` the region is entered
  with: each window's block at a point, what the body leaves in the output's buffer, the body's
  triple, the proof data and the body obligation.
-/
import proofs.«401434_j37297495999027_3_alg».proof.Proof.Gen.KernelIdeal.Launch
import proofs.«401434_j37297495999027_3_alg».proof.Proof.Gen.KernelIdeal.Skeleton
import proofs.«401434_j37297495999027_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rQ : Rect S1024x512 := Rect.unit (s := S1024x512) ![0, 0] S1024x512.size inb_S1024x512_S1024x512_0_0
abbrev rN : Rect S1x1024 := Rect.unit (s := S1x1024) ![0, 0] S1x1024.size inb_S1x1024_S1x1024_0_0
abbrev rL : Rect S1024x1024 := Rect.unit (s := S1024x1024) ![0, 0] S1024x1024.size inb_S1024x1024_S1024x1024_0_0

/-- What the body leaves in the output window's buffer, from the three input blocks: its one store, whole. -/
def out1_3 (x0 : Vec F S1024x512 .f32) (x1 : Vec F S1024x512 .bf16) (x2 : Vec F S1x1024 .f32) : Vec F S1024x1024 .f32 :=
  View.canon [⟨rL, k1_pay1 (View.ld x0 rQ) (View.ld x1 rQ) (View.ld x2 rN)⟩]

theorem cover1_3 (p0 : Vec F S1024x1024 .f32) (y : S1024x1024.Idx) :
    ∃ pc ∈ ([⟨rL, p0⟩] : List (View.Piece (Elt F) S1024x1024 .f32)), y ∈ pc.1.set :=
  View.cover_of_tiled [⟨rL, p0⟩] S1024x1024.size (by rfl) y

/-! ## The body's triple -/

set_option maxHeartbeats 2000000 in
/-- The body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S1024x512 .f32) (harg1 : arg1.IsWhole) (arg2 : Memref sig .tc .vmem S1024x512 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x512 .f32) (x1 : Vec F S1024x512 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__logits_kernel i arg1 harg1 arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole run of @main: a reshape of the labels, region 0 (the per-class partial sums), the host
  operations that combine the two partial sums, count the labels and divide, region 1 (the logits).
  The contents of every buffer at each boundary between two segments are a fold from the launch
  memory: a host stretch's operations applied, a region's arrays at what its write-backs leave.
  Every weakly fair execution terminates without a fault in a state where each unscoped buffer holds
  the last boundary's contents; the arguments are read back through the fold to the launch memory,
  and the result buffer is the logits array region 1 leaves.
-/
import proofs.«401434_j37297495999027_3_alg».proof.Proof.R0Dat
import proofs.«401434_j37297495999027_3_alg».proof.Proof.R1
import proofs.«401434_j37297495999027_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => m (c, b)
/-- After the labels' reshape (region 0's entry). -/
abbrev B1 : Dev nD → Valuation τ sig (Elt F) := fun c => StableHlo.after hostOps0 (B0 m c)
/-- The same read at the TensorCore's references: what region 0's proof data take. -/
abbrev E0 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E0 m) c).arrAt w cfg0.N
theorem B2_arr (c : Dev nD) (w : Fin cfg0.W) :
    B2 m c (Proc.devRef .tc (Pipeline.arrRef spec0 w)) = (dat0 (E0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X0 : (c : Dev nD) → (b : Ref sig .tc) → Buf (Elt F) ((c : Thread nD τ).loc b) := fun c b => B2 m c b
theorem hF0 (c : Dev nD) (w : Fin cfg0.W) : (dat0 (E0 m) c).arrAt w cfg0.N = X0 m c (Pipeline.arrRef spec0 w) :=
  (B2_arr m c w).symm
theorem hrest0 (c : Dev nD) : ∀ b, b ∉ Finset.univ.image (Pipeline.arrRef spec0) → X0 m c b = E0 m c b :=
  fun b hb => B2_of_ne m c b fun w e => hb (Finset.mem_image.mpr ⟨w, Finset.mem_univ _, e⟩)

/-- After the host operations that slice and add the two partial sums; -/
abbrev B3 : Dev nD → Valuation τ sig (Elt F) := fun c => StableHlo.after hostOps1 (B2 m c)
/-- after the labels are clipped at zero; -/
abbrev B4 : Dev nD → Valuation τ sig (Elt F) := fun c => StableHlo.after hostOps1_1 (B3 m c)
/-- after the counts, the division and the prototypes' squared norms (region 1's entry). -/
abbrev B5 : Dev nD → Valuation τ sig (Elt F) := fun c => StableHlo.after hostOps1_2 (B4 m c)
abbrev E1 : (c : Dev nD) → (b : Ref sig .tc) → Buf (Elt F) ((c : Thread nD τ).loc b) := fun c b => B5 m c b
/-- At region 1's exit: its arrays at what the pipeline leaves, every other buffer as entered. -/
def B6 (c : Dev nD) : Valuation τ sig (Elt F) :=
  Pipeline.withArrays spec1 c (B5 m c) fun w => (dat1 (E1 m) c).arrAt w cfg1.N
theorem B6_arr (c : Dev nD) (w : Fin cfg1.W) :
    B6 m c (Proc.devRef .tc (Pipeline.arrRef spec1 w)) = (dat1 (E1 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev X1 : (c : Dev nD) → (b : Ref sig .tc) → Buf (Elt F) ((c : Thread nD τ).loc b) := fun c b => B6 m c b
theorem hF1 (c : Dev nD) (w : Fin cfg1.W) : (dat1 (E1 m) c).arrAt w cfg1.N = X1 m c (Pipeline.arrRef spec1 w) :=
  (B6_arr m c w).symm
theorem hrest1 (c : Dev nD) : ∀ b, b ∉ Finset.univ.image (Pipeline.arrRef spec1) → X1 m c b = E1 m c b :=
  fun b hb => B6_of_ne m c b fun w e => hb (Finset.mem_image.mpr ⟨w, Finset.mem_univ _, e⟩)

/-- The result buffer at the end is the logits array region 1 leaves. -/
theorem B6_main_v29 (c : Dev nD) : B6 m c (Proc.devRef .tc main_v29) = (dat1 (E1 m) c).arrAt 3 cfg1.N := B6_arr m c 3

/-! ### The arguments end as launched: no host operation writes one and no region changes one -/

theorem B6_main_arg0 (c : Dev nD) : B6 m c (Proc.devRef .tc main_arg0) = m ((c : Thread nD τ).loc main_arg0) :=
  calc B6 m c (Proc.devRef .tc main_arg0)
    _ = B5 m c (Proc.devRef .tc main_arg0) := B6_of_ne m c main_arg0 (by decide)
    _ = B4 m c (Proc.devRef .tc main_arg0) := StableHlo.after_of_writes_sub hostOps1_2 _ hostOps1_2_writes (by decide)
    _ = B3 m c (Proc.devRef .tc main_arg0) := StableHlo.after_of_writes_sub hostOps1_1 _ hostOps1_1_writes (by decide)
    _ = B2 m c (Proc.devRef .tc main_arg0) := StableHlo.after_of_writes_sub hostOps1 _ hostOps1_writes (by decide)
    _ = B1 m c (Proc.devRef .tc main_arg0) := (B2_arr m c 0).trans (((dat0 (E0 m) c).arrAt_in 0 rfl _).trans (A_eq0 (E0 m) c 0))
    _ = B0 m c (Proc.devRef .tc main_arg0) := StableHlo.after_of_writes_sub hostOps0 _ hostOps0_writes (by decide)
    _ = m ((c : Thread nD τ).loc main_arg0) := rfl

theorem B6_main_arg1 (c : Dev nD) : B6 m c (Proc.devRef .tc main_arg1) = m ((c : Thread nD τ).loc main_arg1) :=
  calc B6 m c (Proc.devRef .tc main_arg1)
    _ = B5 m c (Proc.devRef .tc main_arg1) := B6_of_ne m c main_arg1 (by decide)
    _ = B4 m c (Proc.devRef .tc main_arg1) := StableHlo.after_of_writes_sub hostOps1_2 _ hostOps1_2_writes (by decide)
    _ = B3 m c (Proc.devRef .tc main_arg1) := StableHlo.after_of_writes_sub hostOps1_1 _ hostOps1_1_writes (by decide)
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl

theorem B6_main_arg2 (c : Dev nD) : B6 m c (Proc.devRef .tc main_arg2) = m ((c : Thread nD τ).loc main_arg2) :=
  calc B6 m c (Proc.devRef .tc main_arg2)
    _ = B5 m c (Proc.devRef .tc main_arg2) := (B6_arr m c 0).trans (((dat1 (E1 m) c).arrAt_in 0 rfl _).trans (A_eq1 (E1 m) c 0))
    _ = B4 m c (Proc.devRef .tc main_arg2) := StableHlo.after_of_writes_sub hostOps1_2 _ hostOps1_2_writes (by decide)
    _ = B3 m c (Proc.devRef .tc main_arg2) := StableHlo.after_of_writes_sub hostOps1_1 _ hostOps1_1_writes (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered from every unscoped buffer at its entry boundary's contents, left at its
    exit boundary's. Its arrays are split out of the unscoped buffers and put back at the exit contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry boundary's contents, left at its
    exit boundary's. Its arrays are split out of the unscoped buffers and put back at the exit contents; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .host (hseg hostOps1_1 hostOps1_1_sub hostOps1_1_fresh (B3 m)),
    .host (hseg hostOps1_2 hostOps1_2_sub hostOps1_2_fresh (B4 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- THE FRAME at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

/-- THE RUN, READ: the result buffer holds the logits array region 1 leaves, the arguments end as launched. -/
theorem run_value : θ_run defs (onTc (τ := τ) (main (F := F))) ⟨m, fun _ => 0, ρ⟩ (fun r => ∀ c : Dev nD,
      r.2.mem ((c.tc : Thread nD τ).loc main_v29) = (dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v29 (by decide))).trans (B6_main_v29 m c),
     (h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

end Cert.KernelIdeal.Hand

end
-- ==== Proof.Bits.R0Runs.lean ====
/-
  Region 0 (the per-class partial sums), the kernel body run once per control case.
  The body keeps a running sum in its scratch: at the first tile of a core's row of the grid it
  clears the scratch and adds the tile's contribution; at a middle tile it adds the tile's
  contribution to what the scratch held; at the last tile it does the same and then copies the
  scratch into the output block. A tile's contribution is the product of the one-hot class matrix
  of the tile's labels with the tile's feature rows. Each case is stated with the scratch's (and the
  output block's) contents after the body as the kernel's own payload terms of what the body loaded.
-/
import proofs.«401434_j37297495999027_3_alg».proof.Proof.Gen.Kernel.Launch
import proofs.«401434_j37297495999027_3_alg».proof.Proof.Gen.Kernel.Skeleton
import proofs.«401434_j37297495999027_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- The body's first condition: the point is the first tile of its core's row (second grid coordinate 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The body's second condition: the point is the last tile of its core's row (second grid coordinate 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a row's last tile the output window is idle (nothing is stored into it) and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a row's last tile the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
/-- The running-sum scratch, a whole scoped buffer of the kernel's own. -/
abbrev scM0 : Memref sig .tc .vmem S1024x512 .f32 := Memref.whole cc0_scratch0

/-- The scoped buffers of the core that region 0 neither stages through nor uses: the second region's staging buffers. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of region 0 spelt out: the scratch at some contents, the other scoped buffers, the generator register. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA; rw [scopedRest0_eq]; simp only [scM0, owns_whole]; try rfl

/-! ## The body's accesses: each a whole buffer -/
abbrev rZ : Rect S2048x512 := Rect.unit (s := S2048x512) ![0, 0] S2048x512.size inb_S2048x512_S2048x512_0_0
abbrev rY : Rect S1x2048 := Rect.unit (s := S1x2048) ![0, 0] S1x2048.size inb_S1x2048_S1x2048_0_0
abbrev rS : Rect S1024x512 := Rect.unit (s := S1024x512) ![0, 0] S1024x512.size inb_S1024x512_S1024x512_0_0
abbrev rO : Rect S1x1024x512 := Rect.unit (s := S1x1024x512) ![0, 0, 0] S1x1024x512.size inb_S1x1024x512_S1x1024x512_0_0_0

theorem coverS (p : Vec F S1024x512 .f32) (y : S1024x512.Idx) :
    ∃ pc ∈ ([⟨rS, p⟩] : List (View.Piece (Elt F) S1024x512 .f32)), y ∈ pc.1.set :=
  View.cover_of_tiled [⟨rS, p⟩] S1024x512.size (by rfl) y
theorem coverO (p : Vec F S1x1024x512 .f32) (y : S1x1024x512.Idx) :
    ∃ pc ∈ ([⟨rO, p⟩] : List (View.Piece (Elt F) S1x1024x512 .f32)), y ∈ pc.1.set :=
  View.cover_of_tiled [⟨rO, p⟩] S1x1024x512.size (by rfl) y

theorem coverS2 (p q : Vec F S1024x512 .f32) (y : S1024x512.Idx) :
    ∃ pc ∈ ([⟨rS, p⟩, ⟨rS, q⟩] : List (View.Piece (Elt F) S1024x512 .f32)), y ∈ pc.1.set :=
  let ⟨pc, hm, hy⟩ := coverS p y; ⟨pc, List.mem_cons.2 (Or.inl (List.mem_singleton.1 hm)), hy⟩

/-! ## The body, case by case -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- A middle tile: the scratch holds `xs`; afterwards it holds `xs` plus the tile's contribution. The output buffer is not touched. -/
theorem run0_B (c : Dev nD) (i : grid0.Coords) (hc0 : ¬cond0_0 i) (hc1 : ¬cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x1 x0 xs)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (coverS _), View.canon_unit_zero hz2]
  simp only [View.readAt_eq_ld, harg2.read_unread, harg3.read_unread, harg5.read_unread, View.ld_unit_zero (S := S2048x512) hz2, View.ld_unit_zero (S := S1x2048) hz2, View.ld_unit_zero (S := S1024x512) hz2]

set_option maxHeartbeats 2000000 in
/-- A row's first tile: whatever the scratch held, afterwards it holds the tile's contribution added to zero. The output buffer is not touched. -/
theorem run0_A (c : Dev nD) (i : grid0.Coords) (hc0 : cond0_0 i) (hc1 : ¬cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x1 x0 k0_pay1)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (coverS2 _ _), View.canon_cons_unit_zero (S := S1024x512) hz2, View.readCov_unit_zero (S := S1024x512) _ hz2]
  simp only [View.readAt_eq_ld, harg2.read_unread, harg3.read_unread, harg5.read_unread, View.ld_unit_zero (S := S2048x512) hz2, View.ld_unit_zero (S := S1x2048) hz2, View.ld_unit_zero (S := S1024x512) hz2]

set_option maxHeartbeats 2000000 in
/-- A row's last tile: the scratch gains the tile's contribution, and the output buffer receives a copy of the scratch. -/
theorem run0_C (c : Dev nD) (i : grid0.Coords) (hc0 : ¬cond0_0 i) (hc1 : cond0_1 i)
    (arg2 : Memref sig .tc .vmem S2048x512 .f32) (harg2 : arg2.IsWhole) (arg3 : Memref sig .tc .vmem S1x2048 .i32) (harg3 : arg3.IsWhole)
    (arg4 : Memref sig .tc .vmem S1x1024x512 .f32) (harg4 : arg4.IsWhole) (arg5 : Memref sig .tc .vmem S1024x512 .f32) (harg5 : arg5.IsWhole)
    (x0 : Vec F S2048x512 .f32) (x1 : Vec F S1x2048 .i32) (xi : Vec F S1x1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x1 x0 xs)) ∗ owns (c : Thread nD τ) arg5 fullShare (k0_pay2 x1 x0 xs)) -∗ K ⟨⟩))
      ⊢ wp frame (wpE (defs₀ (F := F)) Variants.none c none) E (cc0__protos_partial_kernel i arg2 harg2 arg3 harg3 arg4 harg4 arg5 harg5) K := by
  simp only [cc0__protos_partial_kernel_eq_skeleton]; unfold cc0__protos_partial_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverO _), View.canon_unit_zero hz3, View.readCov_unit_zero (S := S1024x512) _ hz2]
    simp only [View.readAt_eq_ld, harg2.read_unread, harg3.read_unread, harg5.read_unread, View.ld_unit_zero (S := S2048x512) hz2, View.ld_unit_zero (S := S1x2048) hz2, View.ld_unit_zero (S := S1024x512) hz2]
  iexists _; isplitr
  swap; · iexact HS
  ipureintro
  sl_unfold_words
  rw [View.read_writes_eq_canon _ _ _ (coverS _), View.canon_unit_zero hz2]
  simp only [View.readAt_eq_ld, harg2.read_unread, harg3.read_unread, harg5.read_unread, View.ld_unit_zero (S := S2048x512) hz2, View.ld_unit_zero (S := S1x2048) hz2, View.ld_unit_zero (S := S1024x512) hz2]

end Cert.Kernel.Hand

end
-- ==== Proof.Bits.R0Dat.lean ====
/-
  Region 0 (the per-class partial sums): the running sum point by point, and the pipeline's proof data.
  The grid is 2 rows of 16 tiles. After the body at a point the scratch holds the sum of the
  contributions of the tiles of the current row up to this one (the row's first tile starts the sum
  again from zero); at a row's last tile the output block receives that sum. Between points the
  invariant holds the scratch at the running sum (at anything before the first point).
-/
import proofs.«401434_j37297495999027_3_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sum -/

/-- What the scratch holds after the body at position `n`: the tile's contribution added to zero at a row's first
    tile, to what the position before left otherwise. -/
def accAt0 (c : Dev nD) : (n : ℕ) → n < cfg0.N → Vec F S1024x512 .f32
  | 0, hn => k0_pay2 (iblk0 V c 1 ⟨0, hn⟩) (iblk0 V c 0 ⟨0, hn⟩) k0_pay1
  | n + 1, hn =>
    if (n + 1) % 16 = 0 then k0_pay2 (iblk0 V c 1 ⟨n + 1, hn⟩) (iblk0 V c 0 ⟨n + 1, hn⟩) k0_pay1
    else k0_pay2 (iblk0 V c 1 ⟨n + 1, hn⟩) (iblk0 V c 0 ⟨n + 1, hn⟩) (accAt0 c n (Nat.lt_of_succ_lt hn))

theorem accAt0_first (c : Dev nD) (t : Fin cfg0.N) (h : t.val % 16 = 0) :
    accAt0 V c t.val t.isLt = k0_pay2 (iblk0 V c 1 t) (iblk0 V c 0 t) k0_pay1 := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (iblk0 V c 1 t) (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position `n`: the class's invariant before the first point (the scratch at anything); afterwards the
    scratch at the running sum the position before left, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ otherScoped0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block, the output's at the running sum (consulted only at a row's last tile, where it is
    stored); the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the inputs' memrefs hold
    their blocks; the invariant hands over the scratch at what the point before left (at anything at the first point)
    and takes it back at this point's running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    have c0 : cond0_0 (grid0.coords t) := (hcond0_0 t).mpr h0
    have c1 : ¬cond0_1 (grid0.coords t) := fun h => h1 ((hcond0_1 t).mp h)
    rw [Dat.leavesExact_idle (dat0 V c) 2 t (idleAt0_2 t c1) (noFlush0_2 t c1)]
    rw [accAt0_first V c t h0]
    by_cases hz : t.val = 0
    · rw [PhiS0_castSucc V c t, PhiS0_zero V c _ _ hz, PhiA0_eq]
      iintro ⟨⟨⟨⟨%ds, HS⟩, Hother⟩, Hg⟩, Ho, ⟨%d0, H0⟩, ⟨%d1, H1⟩, ⟨%d2, H2⟩⟩
      iapply (run0_A c (grid0.coords t) c0 c1 _ _ _ _ _ _ _ _ (iblk0 V c 0 t) (iblk0 V c 1 t) _ ds Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hother⟩, Hg⟩, Ho, ⟨%d0, H0⟩, ⟨%d1, H1⟩, ⟨%d2, H2⟩⟩
      iapply (run0_A c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2
  · have hz : t.val ≠ 0 := fun h => h0 (by rw [h])
    have c0 : ¬cond0_0 (grid0.coords t) := fun h => h0 ((hcond0_0 t).mp h)
    rw [accAt0_next V c t h0]
    rw [PhiS0_castSucc V c t, PhiS0_pos V c _ _ hz]
    by_cases h1 : t.val % 16 = 15
    · have c1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t c1], after0_2, accAt0_next V c t h0]
      iintro ⟨⟨⟨HS, Hother⟩, Hg⟩, Ho, ⟨%d0, H0⟩, ⟨%d1, H1⟩, ⟨%d2, H2⟩⟩
      iapply (run0_C c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexact H2
    · have c1 : ¬cond0_1 (grid0.coords t) := fun h => h1 ((hcond0_1 t).mp h)
      rw [Dat.leavesExact_idle (dat0 V c) 2 t (idleAt0_2 t c1) (noFlush0_2 t c1)]
      iintro ⟨⟨⟨HS, Hother⟩, Hg⟩, Ho, ⟨%d0, H0⟩, ⟨%d1, H1⟩, ⟨%d2, H2⟩⟩
      iapply (run0_B c (grid0.coords t) c0 c1 _ _ _ _ _ _ _ _ (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hother Hg]
      · isplitl [HS Hother]
        · isplitl [HS]; · iexact HS
          iexact Hother
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hother⟩, Hg⟩
  isplitl [HS Hother]
  · isplitl [HS]
    · iexists _; iexact HS
    iexact Hother
  iexact Hg

end Cert.Kernel.Hand

end
-- ==== Proof.Bits.R1.lean ====
/-
  Region 1 (the logits): a pointwise-in-the-grid kernel. At each of the 64 points it loads a tile of
  1024 query rows, the whole prototype table and the row of prototype squared norms, and stores the
  tile of logits 2·(q·pᵀ) − 1·‖q‖² − 1·‖p‖² whole. Stated at the contents `V` the region is entered
  with: each window's block at a point, what the body leaves in the output's buffer, the body's
  triple, the proof data and the body obligation.
-/
import proofs.«401434_j37297495999027_3_alg».proof.Proof.Gen.Kernel.Launch
import proofs.«401434_j37297495999027_3_alg».proof.Proof.Gen.Kernel.Skeleton
import proofs.«401434_j37297495999027_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rQ : Rect S1024x512 := Rect.unit (s := S1024x512) ![0, 0] S1024x512.size inb_S1024x512_S1024x512_0_0
abbrev rN : Rect S1x1024 := Rect.unit (s := S1x1024) ![0, 0] S1x1024.size inb_S1x1024_S1x1024_0_0
abbrev rL : Rect S1024x1024 := Rect.unit (s := S1024x1024) ![0, 0] S1024x1024.size inb_S1024x1024_S1024x1024_0_0

/-- What the body leaves in the output window's buffer, from the three input blocks: its one store, whole. -/
def out1_3 (x0 : Vec F S1024x512 .f32) (x1 : Vec F S1024x512 .bf16) (x2 : Vec F S1x1024 .f32) : Vec F S1024x1024 .f32 :=
  View.canon [⟨rL, k1_pay1 (View.ld x0 rQ) (View.ld x1 rQ) (View.ld x2 rN)⟩]

theorem cover1_3 (p0 : Vec F S1024x1024 .f32) (y : S1024x1024.Idx) :
    ∃ pc ∈ ([⟨rL, p0⟩] : List (View.Piece (Elt F) S1024x1024 .f32)), y ∈ pc.1.set :=
  View.cover_of_tiled [⟨rL, p0⟩] S1024x1024.size (by rfl) y

/-! ## The body's triple -/

set_option maxHeartbeats 2000000 in
/-- The body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S1024x512 .f32) (harg1 : arg1.IsWhole) (arg2 : Memref sig .tc .vmem S1024x512 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x512 .f32) (x1 : Vec F S1024x512 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__logits_kernel i arg1 harg1 arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole run of @main: a reshape of the labels, region 0 (the per-class partial sums), the host
  operations that combine the two partial sums, count the labels and divide, region 1 (the logits).
  The contents of every buffer at each boundary between two segments are a fold from the launch
  memory: a host stretch's operations applied, a region's arrays at what its write-backs leave.
  Every weakly fair execution terminates without a fault in a state where each unscoped buffer holds
  the last boundary's contents; the arguments are read back through the fold to the launch memory,
  and the result buffer is the logits array region 1 leaves.
-/
import proofs.«401434_j37297495999027_3_alg».proof.Proof.Bits.R0Dat
import proofs.«401434_j37297495999027_3_alg».proof.Proof.Bits.R1
import proofs.«401434_j37297495999027_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => m (c, b)
/-- After the labels' reshape (region 0's entry). -/
abbrev B1 : Dev nD → Valuation τ sig (Elt F) := fun c => StableHlo.after hostOps0 (B0 m c)
/-- The same read at the TensorCore's references: what region 0's proof data take. -/
abbrev E0 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E0 m) c).arrAt w cfg0.N
theorem B2_arr (c : Dev nD) (w : Fin cfg0.W) :
    B2 m c (Proc.devRef .tc (Pipeline.arrRef spec0 w)) = (dat0 (E0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X0 : (c : Dev nD) → (b : Ref sig .tc) → Buf (Elt F) ((c : Thread nD τ).loc b) := fun c b => B2 m c b
theorem hF0 (c : Dev nD) (w : Fin cfg0.W) : (dat0 (E0 m) c).arrAt w cfg0.N = X0 m c (Pipeline.arrRef spec0 w) :=
  (B2_arr m c w).symm
theorem hrest0 (c : Dev nD) : ∀ b, b ∉ Finset.univ.image (Pipeline.arrRef spec0) → X0 m c b = E0 m c b :=
  fun b hb => B2_of_ne m c b fun w e => hb (Finset.mem_image.mpr ⟨w, Finset.mem_univ _, e⟩)

/-- After the host operations that slice and add the two partial sums; -/
abbrev B3 : Dev nD → Valuation τ sig (Elt F) := fun c => StableHlo.after hostOps1 (B2 m c)
/-- after the labels are clipped at zero; -/
abbrev B4 : Dev nD → Valuation τ sig (Elt F) := fun c => StableHlo.after hostOps1_1 (B3 m c)
/-- after the counts, the division and the prototypes' squared norms (region 1's entry). -/
abbrev B5 : Dev nD → Valuation τ sig (Elt F) := fun c => StableHlo.after hostOps1_2 (B4 m c)
abbrev E1 : (c : Dev nD) → (b : Ref sig .tc) → Buf (Elt F) ((c : Thread nD τ).loc b) := fun c b => B5 m c b
/-- At region 1's exit: its arrays at what the pipeline leaves, every other buffer as entered. -/
def B6 (c : Dev nD) : Valuation τ sig (Elt F) :=
  Pipeline.withArrays spec1 c (B5 m c) fun w => (dat1 (E1 m) c).arrAt w cfg1.N
theorem B6_arr (c : Dev nD) (w : Fin cfg1.W) :
    B6 m c (Proc.devRef .tc (Pipeline.arrRef spec1 w)) = (dat1 (E1 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev X1 : (c : Dev nD) → (b : Ref sig .tc) → Buf (Elt F) ((c : Thread nD τ).loc b) := fun c b => B6 m c b
theorem hF1 (c : Dev nD) (w : Fin cfg1.W) : (dat1 (E1 m) c).arrAt w cfg1.N = X1 m c (Pipeline.arrRef spec1 w) :=
  (B6_arr m c w).symm
theorem hrest1 (c : Dev nD) : ∀ b, b ∉ Finset.univ.image (Pipeline.arrRef spec1) → X1 m c b = E1 m c b :=
  fun b hb => B6_of_ne m c b fun w e => hb (Finset.mem_image.mpr ⟨w, Finset.mem_univ _, e⟩)

/-- The result buffer at the end is the logits array region 1 leaves. -/
theorem B6_main_v29 (c : Dev nD) : B6 m c (Proc.devRef .tc main_v29) = (dat1 (E1 m) c).arrAt 3 cfg1.N := B6_arr m c 3

/-! ### The arguments end as launched: no host operation writes one and no region changes one -/

theorem B6_main_arg0 (c : Dev nD) : B6 m c (Proc.devRef .tc main_arg0) = m ((c : Thread nD τ).loc main_arg0) :=
  calc B6 m c (Proc.devRef .tc main_arg0)
    _ = B5 m c (Proc.devRef .tc main_arg0) := B6_of_ne m c main_arg0 (by decide)
    _ = B4 m c (Proc.devRef .tc main_arg0) := StableHlo.after_of_writes_sub hostOps1_2 _ hostOps1_2_writes (by decide)
    _ = B3 m c (Proc.devRef .tc main_arg0) := StableHlo.after_of_writes_sub hostOps1_1 _ hostOps1_1_writes (by decide)
    _ = B2 m c (Proc.devRef .tc main_arg0) := StableHlo.after_of_writes_sub hostOps1 _ hostOps1_writes (by decide)
    _ = B1 m c (Proc.devRef .tc main_arg0) := (B2_arr m c 0).trans (((dat0 (E0 m) c).arrAt_in 0 rfl _).trans (A_eq0 (E0 m) c 0))
    _ = B0 m c (Proc.devRef .tc main_arg0) := StableHlo.after_of_writes_sub hostOps0 _ hostOps0_writes (by decide)
    _ = m ((c : Thread nD τ).loc main_arg0) := rfl

theorem B6_main_arg1 (c : Dev nD) : B6 m c (Proc.devRef .tc main_arg1) = m ((c : Thread nD τ).loc main_arg1) :=
  calc B6 m c (Proc.devRef .tc main_arg1)
    _ = B5 m c (Proc.devRef .tc main_arg1) := B6_of_ne m c main_arg1 (by decide)
    _ = B4 m c (Proc.devRef .tc main_arg1) := StableHlo.after_of_writes_sub hostOps1_2 _ hostOps1_2_writes (by decide)
    _ = B3 m c (Proc.devRef .tc main_arg1) := StableHlo.after_of_writes_sub hostOps1_1 _ hostOps1_1_writes (by decide)
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl

theorem B6_main_arg2 (c : Dev nD) : B6 m c (Proc.devRef .tc main_arg2) = m ((c : Thread nD τ).loc main_arg2) :=
  calc B6 m c (Proc.devRef .tc main_arg2)
    _ = B5 m c (Proc.devRef .tc main_arg2) := (B6_arr m c 0).trans (((dat1 (E1 m) c).arrAt_in 0 rfl _).trans (A_eq1 (E1 m) c 0))
    _ = B4 m c (Proc.devRef .tc main_arg2) := StableHlo.after_of_writes_sub hostOps1_2 _ hostOps1_2_writes (by decide)
    _ = B3 m c (Proc.devRef .tc main_arg2) := StableHlo.after_of_writes_sub hostOps1_1 _ hostOps1_1_writes (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered from every unscoped buffer at its entry boundary's contents, left at its
    exit boundary's. Its arrays are split out of the unscoped buffers and put back at the exit contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry boundary's contents, left at its
    exit boundary's. Its arrays are split out of the unscoped buffers and put back at the exit contents; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .host (hseg hostOps1_1 hostOps1_1_sub hostOps1_1_fresh (B3 m)),
    .host (hseg hostOps1_2 hostOps1_2_sub hostOps1_2_fresh (B4 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- THE FRAME at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

/-- THE RUN, READ: the result buffer holds the logits array region 1 leaves, the arguments end as launched. -/
theorem run_value : θ_run defs (onTc (τ := τ) (main (F := F))) ⟨m, fun _ => 0, ρ⟩ (fun r => ∀ c : Dev nD,
      r.2.mem ((c.tc : Thread nD τ).loc main_v29) = (dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v29 (by decide))).trans (B6_main_v29 m c),
     (h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

end Cert.Kernel.Hand

end
-- ==== Proof.Spec.lean ====
/-
  The mathematics of the two programs, over coordinates.
  Inputs: support features z (65536 rows of 512), their labels y (32-bit words read as signed integers), query
  features q (65536 rows of 512). A row contributes to class k when its label, as an integer, is k.
  The prototype of class k is the sum of the rows of class k divided by max(number of such rows, 1); the logit of
  query n against class k is −(‖q_n‖² + ‖p_k‖² − 2 q_n·p_k).
  The kernel's program computes the class sums as two partial sums (the two halves of the rows, each half in 16
  tiles of 2048 rows, a row entering through a one-hot factor), and the logit as 2 q·p − 1·‖q‖² − 1·‖p‖². The two
  class sums agree on the extended reals by reordering a finite sum; the two forms of the logit agree when all
  the numbers involved are real (no infinity), which the finiteness of z and q gives.
-/
import Idealize.ShloMosaic.PureOps.Ideal
import Idealize.ShloMosaic.Lib.ValueIdx

noncomputable section

open scoped BigOperators

namespace Cert.Spec

open Idealize.ShloMosaic

/-- The one-hot factor of a label word against class `k`: 1 when the word, read as a signed integer, is `k`. -/
def oh (w : BitVec 32) (k : Fin 1024) : EReal := if w.toInt = (k.val : ℤ) then 1 else 0

/-- Row `j` of tile `i` of half `r` of the support rows. -/
def row (r : Fin 2) (i : Fin 16) (j : Fin 2048) : Fin 65536 := ⟨2048 * (16 * r.val + i.val) + j.val, by omega⟩

/-- The kernel's partial class sum over half `r`: tile by tile, row by row, each row through its one-hot factor. -/
def part (z : Fin 65536 → Fin 512 → EReal) (y : Fin 65536 → BitVec 32) (r : Fin 2) (k : Fin 1024) (d : Fin 512) : EReal :=
  ∑ i : Fin 16, ∑ j : Fin 2048, oh (y (row r i j)) k * z (row r i j) d

/-- How many rows have class `k`. -/
def cnt (y : Fin 65536 → BitVec 32) (k : Fin 1024) : ℕ :=
  (Finset.univ.filter fun n : Fin 65536 => (y n).toInt = (k.val : ℤ)).card

/-- The divisor of class `k`'s prototype: max(count, 1), a positive real. -/
def den (y : Fin 65536 → BitVec 32) (k : Fin 1024) : EReal := ((max (cnt y k) 1 : ℕ) : ℝ)

/-- The kernel's prototype: the two partial sums added, divided. -/
def protoK (z : Fin 65536 → Fin 512 → EReal) (y : Fin 65536 → BitVec 32) (k : Fin 1024) (d : Fin 512) : EReal :=
  Ideal.div (part z y 0 k d + part z y 1 k d) (den y k)

/-- The reference's class sum: the rows of class `k`, summed. -/
def segsum (z : Fin 65536 → Fin 512 → EReal) (y : Fin 65536 → BitVec 32) (k : Fin 1024) (d : Fin 512) : EReal :=
  ∑ n ∈ Finset.univ.filter (fun n : Fin 65536 => (y n).toInt = (k.val : ℤ)), z n d

/-- The reference's prototype. -/
def protoR (z : Fin 65536 → Fin 512 → EReal) (y : Fin 65536 → BitVec 32) (k : Fin 1024) (d : Fin 512) : EReal :=
  Ideal.div (segsum z y k d) (den y k)

/-- The kernel's logit, from the query rows, a prototype table and a table of squared norms. -/
def logitK (q : Fin 65536 → Fin 512 → EReal) (p : Fin 1024 → Fin 512 → EReal) (s : Fin 1024 → EReal) (n : Fin 65536) (k : Fin 1024) : EReal :=
  2 * (∑ d : Fin 512, q n d * p k d) - 1 * (∑ d : Fin 512, q n d * q n d) - 1 * s k

/-- The reference's logit. -/
def logitR (q : Fin 65536 → Fin 512 → EReal) (p : Fin 1024 → Fin 512 → EReal) (n : Fin 65536) (k : Fin 1024) : EReal :=
  (-1) * ((∑ d : Fin 512, q n d * q n d) + (∑ d : Fin 512, p k d * p k d) - 2 * (∑ d : Fin 512, q n d * p k d))

/-- A one-hot factor times a number is that number or zero: 1 · x = x and 0 · x = 0 hold at the infinities too. -/
theorem oh_mul (w : BitVec 32) (k : Fin 1024) (x : EReal) :
    oh w k * x = if w.toInt = (k.val : ℤ) then x else 0 := by
  unfold oh
  split_ifs
  · exact one_mul x
  · exact zero_mul x

/-- Half, tile and position determine the row: n = 2048 · (16 r + i) + j with j < 2048 and i < 16. -/
theorem row_injective : Function.Injective (fun x : Fin 2 × Fin 16 × Fin 2048 => row x.1 x.2.1 x.2.2) := by
  rintro ⟨r, i, j⟩ ⟨r', i', j'⟩ h
  simp only [row, Fin.mk.injEq] at h
  have hr := r.isLt
  have hr' := r'.isLt
  have hi := i.isLt
  have hi' := i'.isLt
  have hj := j.isLt
  have hj' := j'.isLt
  have e1 : r = r' := Fin.ext (by omega)
  have e2 : i = i' := Fin.ext (by omega)
  have e3 : j = j' := Fin.ext (by omega)
  subst e1 e2 e3
  rfl

/-- The rows, listed half by half, tile by tile, are all 65536 rows, each once: 2 · 16 · 2048 = 65536. -/
theorem row_bijective : Function.Bijective (fun x : Fin 2 × Fin 16 × Fin 2048 => row x.1 x.2.1 x.2.2) := by
  rw [Fintype.bijective_iff_injective_and_card]
  refine ⟨row_injective, ?_⟩
  simp only [Fintype.card_prod, Fintype.card_fin]

/-- A sum over all rows, taken half by half and tile by tile. -/
theorem sum_rows {M : Type*} [AddCommMonoid M] (f : Fin 65536 → M) :
    ∑ r : Fin 2, ∑ i : Fin 16, ∑ j : Fin 2048, f (row r i j) = ∑ n : Fin 65536, f n := by
  rw [← Fintype.sum_bijective _ row_bijective (fun x => f (row x.1 x.2.1 x.2.2)) f (fun _ => rfl)]
  simp only [Fintype.sum_prod_type]

/-- The two class sums are one sum, reordered: no finiteness needed. -/
theorem part_add_eq_segsum (z : Fin 65536 → Fin 512 → EReal) (y : Fin 65536 → BitVec 32) (k : Fin 1024) (d : Fin 512) :
    part z y 0 k d + part z y 1 k d = segsum z y k d := by
  unfold part segsum
  rw [Finset.sum_filter, ← sum_rows (fun n => if (y n).toInt = (k.val : ℤ) then z n d else 0), Fin.sum_univ_two]
  simp only [oh_mul]

theorem protoK_eq_protoR (z : Fin 65536 → Fin 512 → EReal) (y : Fin 65536 → BitVec 32) : protoK z y = protoR z y := by
  funext k d; unfold protoK protoR; rw [part_add_eq_segsum]

/-- A finite sum of real numbers, each read in the extended reals, is the real sum read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals that are all real is real. -/
theorem sum_real {ι : Type*} (s : Finset ι) (f : ι → EReal) (h : ∀ i ∈ s, ∃ r : ℝ, f i = (r : EReal)) :
    ∃ r : ℝ, ∑ i ∈ s, f i = (r : EReal) := by
  choose! g hg using h
  exact ⟨∑ i ∈ s, g i, by rw [← coe_sum]; exact Finset.sum_congr rfl hg⟩

/-- A prototype of real rows is a real number. -/
theorem protoR_real (z : Fin 65536 → Fin 512 → EReal) (hz : ∀ n d, ∃ r : ℝ, z n d = (r : EReal)) (y : Fin 65536 → BitVec 32)
    (k : Fin 1024) (d : Fin 512) : ∃ r : ℝ, protoR z y k d = (r : EReal) := by
  obtain ⟨r, hr⟩ := sum_real (Finset.univ.filter (fun n : Fin 65536 => (y n).toInt = (k.val : ℤ))) (fun n => z n d)
    (fun n _ => hz n d)
  have hne : (((max (cnt y k) 1 : ℕ) : ℝ)) ≠ 0 := by
    have : 0 < max (cnt y k) 1 := lt_max_of_lt_right Nat.one_pos
    exact_mod_cast this.ne'
  refine ⟨r * (1 / ((max (cnt y k) 1 : ℕ) : ℝ)), ?_⟩
  unfold protoR segsum den
  rw [hr, Ideal.div_coe hne, EReal.coe_mul]

/-- The two forms of the logit agree on real numbers. -/
theorem logitK_eq_logitR (q : Fin 65536 → Fin 512 → EReal) (hq : ∀ n d, ∃ r : ℝ, q n d = (r : EReal))
    (p : Fin 1024 → Fin 512 → EReal) (hp : ∀ k d, ∃ r : ℝ, p k d = (r : EReal)) (n : Fin 65536) (k : Fin 1024) :
    logitK q p (fun k => ∑ d : Fin 512, p k d * p k d) n k = logitR q p n k := by
  choose qr hqr using hq
  choose pr hpr using hp
  have hqp : ∑ d : Fin 512, q n d * p k d = ((∑ d : Fin 512, qr n d * pr k d : ℝ) : EReal) := by
    rw [← coe_sum]; exact Finset.sum_congr rfl (fun d _ => by rw [hqr, hpr, EReal.coe_mul])
  have hqq : ∑ d : Fin 512, q n d * q n d = ((∑ d : Fin 512, qr n d * qr n d : ℝ) : EReal) := by
    rw [← coe_sum]; exact Finset.sum_congr rfl (fun d _ => by rw [hqr, EReal.coe_mul])
  have hpp : ∑ d : Fin 512, p k d * p k d = ((∑ d : Fin 512, pr k d * pr k d : ℝ) : EReal) := by
    rw [← coe_sum]; exact Finset.sum_congr rfl (fun d _ => by rw [hpr, EReal.coe_mul])
  have e2 : (2 : EReal) = ((2 : ℝ) : EReal) := rfl
  have e1 : (1 : EReal) = ((1 : ℝ) : EReal) := rfl
  have em : (-1 : EReal) = ((-1 : ℝ) : EReal) := by rw [EReal.coe_neg]; rfl
  unfold logitK logitR
  beta_reduce
  rw [em, hqp, hqq, hpp, e2, e1]
  simp only [← EReal.coe_mul, ← EReal.coe_add, ← EReal.coe_sub]
  congr 1
  ring

end Cert.Spec

end
-- ==== Proof.ValR0.lean ====
/-
  Region 0's result at the ideal instance, index by index: entry (r, k, d) of the partial-sums array the region
  leaves is the sum over the 16 tiles of half r and the 2048 rows of each tile of the row's one-hot factor against
  class k times the row's feature d. The running sum after a point is that sum over the row's tiles so far (by
  induction on the point); the two rows' last points write back the two blocks, which cover the array.
-/
import proofs.«401434_j37297495999027_3_alg».proof.Proof.R0Dat
import proofs.«401434_j37297495999027_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace ValR0

/-! ## One tile's contribution at an entry

A label word w counts for class k exactly when w, read as a signed integer, is k: for k below 1024 the 32-bit word
of k has that signed value, and two words with the same signed value are the same word. The body's product of the
one-hot matrix (class number against label, as 1 or 0) with the tile's feature rows is, at entry (k, d), the sum over
the tile's rows j of the row's one-hot factor against k times the row's feature d, added to what was there. -/

/-- The zero block reads 0 everywhere. -/
theorem pay1_apply (k : Fin 1024) (d : Fin 512) : (k0_pay1 (F := Ideal)) (ix2 k d) = 0 := by
  unfold k0_pay1
  rw [shapeCast_self]
  show Ideal.ofBits .f32 0x00000000#32 = 0
  exact Ideal.ofBits_zero_f32

theorem toInt_ofNat_small (k : Fin 1024) : (BitVec.ofNat 32 k.val).toInt = (k.val : ℤ) := by
  have hk : k.val < 1024 := k.isLt
  rw [BitVec.toInt_eq_toNat_cond, BitVec.toNat_ofNat]
  have e : k.val % 2 ^ 32 = k.val := Nat.mod_eq_of_lt (by omega)
  rw [e, if_pos (by omega)]

theorem oh_word (w : BitVec 32) (k : Fin 1024) :
    (FloatOps.sitofp (F := Ideal) .f32 ((IntOp.cmpi .eq (BitVec.ofNat 32 k.val) w).setWidth 32) : EReal) = Cert.Spec.oh w k := by
  unfold Cert.Spec.oh
  show ((((IntOp.cmpi .eq (BitVec.ofNat 32 k.val) w).setWidth 32).toInt : ℝ) : EReal) = _
  by_cases h : BitVec.ofNat 32 k.val = w
  · have hc : IntOp.cmpi .eq (BitVec.ofNat 32 k.val) w = 1#1 := IntOp.cmpi_eq.mpr h
    have hw : w.toInt = (k.val : ℤ) := by rw [← h]; exact toInt_ofNat_small k
    rw [hc, if_pos hw]
    have : ((1#1 : BitVec 1).setWidth 32).toInt = 1 := by decide
    rw [this]; norm_num
  · have hc : IntOp.cmpi .eq (BitVec.ofNat 32 k.val) w = 0#1 := eq_zero_of_ne_one (fun e => h (IntOp.cmpi_eq.mp e))
    have hw : ¬ w.toInt = (k.val : ℤ) := fun e => h (BitVec.eq_of_toInt_eq ((toInt_ofNat_small k).trans e.symm))
    rw [hc, if_neg hw]
    have : ((0#1 : BitVec 1).setWidth 32).toInt = 0 := by decide
    rw [this]; norm_num

theorem lhsK0 (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhsK1 (i : S1024x512.Idx) (q : dot_S1024x2048_S2048x512_S1024x512_1_0_0_1_n_n.contr.Idx) : (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhsK0 (i : S1024x512.Idx) (q : dot_S1024x2048_S2048x512_S1024x512_1_0_0_1_n_n.contr.Idx) : (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhsK1 (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The class column broadcast over the tile's rows reads the class number. -/
theorem iota_bc_apply (k : Fin 1024) (j : Fin 2048) :
    broadcastTo S1024x2048 (iota .tc S1024x1 32 [0] iota_S1024x1_d0_w32) broadcasts_S1024x1_S1024x2048 (ix2 k j) = BitVec.ofNat 32 k.val := by
  rw [broadcastTo_apply _ broadcasts_S1024x1_S1024x2048 (ix2 k j) (ix2 k (0 : Fin 1)) (fun a => match a with
    | ⟨0, _⟩ => by show k.val = if (1024 : Nat) = 1 then 0 else k.val; rw [if_neg (by decide)]
    | ⟨1, _⟩ => by show 0 = if (1 : Nat) = 1 then 0 else j.val; rw [if_pos rfl])]
  rw [iota_single_apply]

/-- THE TILE'S CONTRIBUTION at entry (k, d). -/
theorem pay2_apply (yb : Vec Ideal S1x2048 .i32) (zb : Vec Ideal S2048x512 .f32) (acc : Vec Ideal S1024x512 .f32)
    (k : Fin 1024) (d : Fin 512) :
    k0_pay2 yb zb acc (ix2 k d) = acc (ix2 k d) + ∑ j : Fin 2048, Cert.Spec.oh (yb (ix2 (0 : Fin 1) j)) k * zb (ix2 j d) := by
  unfold k0_pay2
  rw [shapeCast_self, addf_apply]
  congr 1
  simp only [matmul]
  rw [Ideal.matmul_constant_zero_apply, ← Equiv.sum_comp (contrEquiv1 dot_S1024x2048_S2048x512_S1024x512_1_0_0_1_n_n 2048 rfl rfl).symm]
  refine Finset.sum_congr rfl fun j _ => ?_
  have hj := contrEquiv1_symm_val dot_S1024x2048_S2048x512_S1024x512_1_0_0_1_n_n 2048 rfl rfl j
  have el : dot_S1024x2048_S2048x512_S1024x512_1_0_0_1_n_n.lhsIdx (ix2 k d) ((contrEquiv1 dot_S1024x2048_S2048x512_S1024x512_1_0_0_1_n_n 2048 rfl rfl).symm j) = ix2 k j :=
    Shape.idx_ext₂ (lhsK0 _ _) ((lhsK1 _ _).trans hj)
  have er : dot_S1024x2048_S2048x512_S1024x512_1_0_0_1_n_n.rhsIdx (ix2 k d) ((contrEquiv1 dot_S1024x2048_S2048x512_S1024x512_1_0_0_1_n_n 2048 rfl rfl).symm j) = ix2 j d :=
    Shape.idx_ext₂ ((rhsK0 _ _).trans hj) (rhsK1 _ _)
  rw [el, er, truncf_apply, truncf_apply, sitofp_apply, extui_apply]
  show FloatOps.sitofp (F := Ideal) .f32 ((IntOp.cmpi .eq (broadcastTo S1024x2048 (iota .tc S1024x1 32 [0] iota_S1024x1_d0_w32) broadcasts_S1024x1_S1024x2048 (ix2 k j))
      (broadcastTo S1024x2048 (shapeCast S1x2048 yb shapeCasts_S1x2048_S1x2048) broadcasts_S1x2048_S1024x2048 (ix2 k j))).setWidth 32) * zb (ix2 j d) = _
  rw [iota_bc_apply, broadcastTo_1b_ab_apply, shapeCast_self, oh_word]

/-! ## The blocks of the inputs, read off the arrays

Point t fetches rows 2048 t … 2048 t + 2047 of the features and the same stretch of the labels: block coordinate =
block index × block size + local coordinate, the block indices being (t, 0) and (0, t). -/

/-- The index maps over the grid: point t fetches tile t of the rows and of the labels, and writes back block t / 16. -/
theorem idx0_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0 :=
  (by decide +kernel : ∀ t : Fin grid0.N, _)

theorem iblk0_0_apply (c : Dev nD) (t : Fin cfg0.N) (j : Fin 2048) (d : Fin 512) (n : Fin 65536) (hn : n.val = 2048 * t.val + j.val) :
    (iblk0 V c 0 t : Vec Ideal S2048x512 .f32) (ix2 j d) = V c main_arg0 (ix2 n d) := by
  obtain ⟨e0, e1, -⟩ := idx0_facts t
  unfold iblk0
  rw [View.read_apply]
  show V c main_arg0 _ = V c main_arg0 _
  congr 1
  funext a; apply Fin.ext
  match a with
  | ⟨0, _⟩ => show win0_0.index t (0 : Fin 2) * 2048 + 1 * j.val = n.val; rw [e0]; omega
  | ⟨1, _⟩ => show win0_0.index t (1 : Fin 2) * 512 + 1 * d.val = d.val; rw [e1]; omega

theorem iblk0_1_apply (c : Dev nD) (t : Fin cfg0.N) (j : Fin 2048) (n : Fin 65536) (hn : n.val = 2048 * t.val + j.val) :
    (iblk0 V c 1 t : Vec Ideal S1x2048 .i32) (ix2 (0 : Fin 1) j) = V c main_v0 (ix2 (0 : Fin 1) n) := by
  obtain ⟨-, -, e0, e1, -⟩ := idx0_facts t
  unfold iblk0
  rw [View.read_apply]
  show V c main_v0 _ = V c main_v0 _
  congr 1
  funext a; apply Fin.ext
  match a with
  | ⟨0, _⟩ => show win0_1.index t (0 : Fin 2) * 1 + 1 * 0 = 0; rw [e0]
  | ⟨1, _⟩ => show win0_1.index t (1 : Fin 2) * 2048 + 1 * j.val = n.val; rw [e1]; omega

/-! ## The running sum, by induction on the point

After point n the scratch holds, at entry (k, d), the contributions of the tiles 16 (n / 16) … n of the current half:
a half's first point starts again from zero, every other point adds its tile to what the point before left. At a half's
last point that is the half's partial sum. -/

/-- Tile s's contribution to entry (k, d): rows 2048 s … 2048 s + 2047 of the array (zero past the grid, never used). -/
def tileSum (c : Dev nD) (k : Fin 1024) (d : Fin 512) (s : ℕ) : EReal :=
  if h : s < 32 then
    ∑ j : Fin 2048, Cert.Spec.oh (V c main_v0 (ix2 (0 : Fin 1) (⟨2048 * s + j.val, by have := j.isLt; omega⟩ : Fin 65536))) k
      * V c main_arg0 (ix2 (⟨2048 * s + j.val, by have := j.isLt; omega⟩ : Fin 65536) d)
  else 0

/-- The body's step at point t adds tile t's contribution. -/
theorem step_apply (c : Dev nD) (t : Fin cfg0.N) (acc : Vec Ideal S1024x512 .f32) (k : Fin 1024) (d : Fin 512) :
    k0_pay2 (iblk0 V c 1 t) (iblk0 V c 0 t) acc (ix2 k d) = acc (ix2 k d) + tileSum V c k d t.val := by
  have hN : t.val < 32 := lt_of_lt_of_eq t.isLt (show cfg0.N = 32 from N_0)
  refine (pay2_apply (iblk0 V c 1 t) (iblk0 V c 0 t) acc k d).trans ?_
  refine congrArg (acc (ix2 k d) + ·) ?_
  rw [tileSum, dif_pos hN]
  refine Finset.sum_congr rfl fun j _ => ?_
  exact congrArg₂ (fun a b => Cert.Spec.oh a k * b)
    (iblk0_1_apply V c t j ⟨2048 * t.val + j.val, by have := j.isLt; omega⟩ rfl)
    (iblk0_0_apply V c t j d ⟨2048 * t.val + j.val, by have := j.isLt; omega⟩ rfl)

/-- THE RUNNING SUM after point n: the contributions of the tiles of the current half up to this one. -/
theorem accAt0_apply (c : Dev nD) (k : Fin 1024) (d : Fin 512) : ∀ (n : ℕ) (hn : n < cfg0.N),
    accAt0 V c n hn (ix2 k d) = ∑ s ∈ Finset.range (n % 16 + 1), tileSum V c k d (16 * (n / 16) + s)
  | 0, hn => by
    have e := accAt0_first V c ⟨0, hn⟩ rfl
    rw [show accAt0 V c 0 hn = _ from e, step_apply, pay1_apply, zero_add]
    show _ = ∑ s ∈ Finset.range 1, tileSum V c k d (16 * (0 / 16) + s)
    rw [Finset.sum_range_one]
  | n + 1, hn => by
    by_cases h : (n + 1) % 16 = 0
    · have e := accAt0_first V c ⟨n + 1, hn⟩ h
      rw [show accAt0 V c (n + 1) hn = _ from e, step_apply, pay1_apply, zero_add, h, Finset.sum_range_one]
      congr 1
      show n + 1 = 16 * ((n + 1) / 16) + 0
      omega
    · have e := accAt0_next V c ⟨n + 1, hn⟩ h
      rw [show accAt0 V c (n + 1) hn = _ from e, step_apply]
      show accAt0 V c n _ (ix2 k d) + tileSum V c k d (n + 1) = _
      rw [accAt0_apply c k d n (Nat.lt_of_succ_lt hn)]
      have e1 : (n + 1) % 16 = n % 16 + 1 := by omega
      have e2 : (n + 1) / 16 = n / 16 := by omega
      rw [e1, e2, Finset.sum_range_succ _ (n % 16 + 1)]
      congr 2
      omega

/-- At a half's last point the running sum is the half's partial sum. -/
theorem accAt0_last (c : Dev nD) (t : Fin cfg0.N) (h : t.val % 16 = 15) (r : Fin 2) (hr : r.val = t.val / 16)
    (k : Fin 1024) (d : Fin 512) :
    accAt0 V c t.val t.isLt (ix2 k d)
      = Cert.Spec.part (fun n d => V c main_arg0 (ix2 n d)) (fun n => V c main_v0 (ix2 (0 : Fin 1) n)) r k d := by
  have e : t.val % 16 + 1 = 16 := by omega
  rw [accAt0_apply, e, ← hr, Finset.sum_range]
  unfold Cert.Spec.part
  refine Finset.sum_congr rfl fun i _ => ?_
  have hlt : 16 * r.val + i.val < 32 := by have := r.isLt; have := i.isLt; omega
  rw [tileSum, dif_pos hlt]
  rfl

/-! ## The array the region leaves

A half's last point writes back block (r, 0, 0), r = t / 16, of size [1, 1024, 512]: the running sum under a leading
unit axis. The two such points' blocks cover the [2, 1024, 512] array. -/

/-- The partial sum at natural coordinates (zero outside the array, never used). -/
def partN (c : Dev nD) (a b e : ℕ) : EReal :=
  if h : a < 2 ∧ b < 1024 ∧ e < 512 then
    Cert.Spec.part (fun n d => V c main_arg0 (ix2 n d)) (fun n => V c main_v0 (ix2 (0 : Fin 1) n)) ⟨a, h.1⟩ ⟨b, h.2.1⟩ ⟨e, h.2.2⟩
  else 0

/-- The array the region leaves, entry by entry. -/
def G0 (c : Dev nD) : Buf (Elt Ideal) ((c : Thread nD τ).loc main_v1) := fun i => partN V c (i 0).val (i 1).val (i 2).val

/-- What a half's last point writes back is its block of that array. -/
theorem flushed0_eq (c : Dev nD) (t : Fin cfg0.N) (hf : (cfg0.win 2).flush t = true) :
    (dat0 V c).flushed 2 t = ((cfg0.win 2).blk t).view.read (Elt Ideal) (G0 V c) := by
  have h15 : t.val % 16 = 15 := (flush0_2 t).mp hf
  have hN : t.val < 32 := lt_of_lt_of_eq t.isLt (show cfg0.N = 32 from N_0)
  obtain ⟨-, -, -, -, e0, e1, e2⟩ := idx0_facts t
  show (cfg0.win 2).cut (grid0.coords t) ((dat0 V c).after 2 t) = _
  rw [after0_2]
  funext x
  obtain ⟨u, p, q, rfl⟩ : ∃ (u : Fin 1) (p : Fin 1024) (q : Fin 512), x = ix3 u p q := ⟨x 0, x 1, x 2, eq_ix3 x⟩
  rw [View.read_apply]
  show k0_pay3 (accAt0 V c t.val t.isLt) (ix3 u p q)
    = partN V c (win0_2.index t (0 : Fin 3) * 1 + 1 * u.val) (win0_2.index t (1 : Fin 3) * 1024 + 1 * p.val) (win0_2.index t (2 : Fin 3) * 512 + 1 * q.val)
  have hu : u.val = 0 := by omega
  rw [e0, e1, e2, show t.val / 16 * 1 + 1 * u.val = t.val / 16 from by omega, show 0 * 1024 + 1 * p.val = p.val from by omega,
    show 0 * 512 + 1 * q.val = q.val from by omega]
  unfold k0_pay3
  rw [shapeCast_ab_1ab_apply, accAt0_last V c t h15 ⟨t.val / 16, by omega⟩ rfl, partN, dif_pos ⟨by omega, p.isLt, q.isLt⟩]

/-- The two written-back blocks cover the array. -/
theorem cover0 (i : S2x1024x512.Idx) :
    ∃ t : Fin cfg0.N, (cfg0.win 2).flush t = true ∧ i ∈ ((cfg0.win 2).blk t).view.set := by
  have hN : cfg0.N = 32 := N_0
  have h0 : (i 0).val < 2 := (i 0).isLt
  have h1 : (i 1).val < 1024 := (i 1).isLt
  have h2 : (i 2).val < 512 := (i 2).isLt
  obtain ⟨t, ht⟩ : ∃ t : Fin cfg0.N, t.val = 16 * (i 0).val + 15 := ⟨⟨16 * (i 0).val + 15, by omega⟩, rfl⟩
  obtain ⟨-, -, -, -, e0, e1, e2⟩ := idx0_facts t
  refine ⟨t, (flush0_2 t).mpr (by omega), ?_⟩
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 512 ≤ (i 2).val ∧ (i 2).val < win0_2.index t (2 : Fin 3) * 512 + 512; rw [e2]; omega

end ValR0

/-- THE PARTIAL-SUMS ARRAY after region 0, at entry (r, k, d). -/
theorem partial_apply (c : Dev nD) (r : Fin 2) (k : Fin 1024) (d : Fin 512) :
    (dat0 (F := Ideal) V c).arrAt 2 cfg0.N (ix3 r k d)
      = Cert.Spec.part (fun n d => V c main_arg0 (ix2 n d)) (fun n => V c main_v0 (ix2 (0 : Fin 1) n)) r k d := by
  rw [(dat0 V c).arrAt_eq_of_cover 2 (ValR0.G0 V c) (ValR0.flushed0_eq V c) ValR0.cover0]
  show ValR0.partN V c r.val k.val d.val = _
  rw [ValR0.partN, dif_pos ⟨r.isLt, k.isLt, d.isLt⟩]

end Cert.KernelIdeal.Hand

end
-- ==== Proof.ValR1.lean ====
/-
  Region 1's result at the ideal instance, index by index: entry (n, k) of the logits array the region leaves is
  2·Σ_d q(n,d)·p(k,d) − 1·Σ_d q(n,d)² − 1·s(k) of the query array, the prototype table and the squared-norm row
  as the region finds them. Each point writes back one tile of 1024 query rows; the 64 tiles cover the array.
-/
import proofs.«401434_j37297495999027_3_alg».proof.Proof.R1
import proofs.«401434_j37297495999027_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The literals -/

/-- The word 0x40000000 denotes the real 2. -/
theorem lit_two_r1 : Ideal.ofBits .f32 0x40000000#32 = 2 := by
  simp [Ideal.ofBits, Ideal.ieee, -EReal.coe_mul]; norm_num; norm_cast

/-- The word 0x3F800000 denotes the real 1. -/
theorem lit_one_r1 : Ideal.ofBits .f32 0x3F800000#32 = 1 := by
  simp [Ideal.ofBits, Ideal.ieee, -EReal.coe_mul]; norm_num

/-! ## The body's arithmetic at an entry -/

/-- The product's dimension numbers: the feature axis of the rows against the feature axis of the table. -/
abbrev dotR1 : DotDims S1024x512 S1024x512 S1024x1024 := dot_S1024x512_S1024x512_S1024x1024_1_1_0_0_n_n

theorem dotR1_lhs0 (i : S1024x1024.Idx) (q : dotR1.contr.Idx) : (dotR1.lhsIdx i q 0).val = (i 0).val := by
  unfold DotDims.lhsIdx
  rw [dif_neg (show ¬(0 : Fin S1024x512.rank) ∈ dotR1.lhsBatch by decide), dif_pos (show (0 : Fin S1024x512.rank) ∈ dotR1.lhsNonContracting by decide)]
  rfl
theorem dotR1_lhs1 (i : S1024x1024.Idx) (q : dotR1.contr.Idx) : (dotR1.lhsIdx i q 1).val = (q ⟨0, by decide⟩).val :=
  dotR1.lhsIdx_val_of_single rfl i q
theorem dotR1_rhs0 (i : S1024x1024.Idx) (q : dotR1.contr.Idx) : (dotR1.rhsIdx i q 0).val = (i 1).val := by
  unfold DotDims.rhsIdx
  rw [dif_neg (show ¬(0 : Fin S1024x512.rank) ∈ dotR1.rhsBatch by decide), dif_pos (show (0 : Fin S1024x512.rank) ∈ dotR1.rhsNonContracting by decide)]
  rfl
theorem dotR1_rhs1 (i : S1024x1024.Idx) (q : dotR1.contr.Idx) : (dotR1.rhsIdx i q 1).val = (q ⟨0, by decide⟩).val :=
  dotR1.rhsIdx_val_of_single rfl i q

/-- The product of a row block with the transposed table, accumulated into zero: entry (p, k) is the sum over the
    512 features of row p of the block times row k of the table. -/
theorem dotR1_apply (a b : FVec Ideal S1024x512 .bf16) (p k : Fin 1024) :
    matmul dotR1 none a b (constant S1024x1024 .f32 0x00000000#32) (ix2 p k) = ∑ d : Fin 512, a (ix2 p d) * b (ix2 k d) := by
  simp only [matmul]
  rw [Ideal.matmul_constant_zero_apply, ← Equiv.sum_comp (contrEquiv1 dotR1 512 rfl rfl).symm]
  refine Finset.sum_congr rfl fun d _ => ?_
  have hd := contrEquiv1_symm_val dotR1 512 rfl rfl d
  have el : dotR1.lhsIdx (ix2 p k) ((contrEquiv1 dotR1 512 rfl rfl).symm d) = ix2 p d := funext fun a => Fin.ext (by
    match a with
    | ⟨0, _⟩ => exact dotR1_lhs0 _ _
    | ⟨1, _⟩ => exact (dotR1_lhs1 _ _).trans hd)
  have er : dotR1.rhsIdx (ix2 p k) ((contrEquiv1 dotR1 512 rfl rfl).symm d) = ix2 k d := funext fun a => Fin.ext (by
    match a with
    | ⟨0, _⟩ => exact dotR1_rhs0 _ _
    | ⟨1, _⟩ => exact (dotR1_rhs1 _ _).trans hd)
  rw [el, er]

/-- The lane sum of a block, reshaped to a column: entry (p, 0) is the sum over the 512 features of row p. -/
theorem rowsumR1_apply (y : FVec Ideal S1024x512 .f32) (h : S1024x512.Reduces [1] S1024) (hφ) (hacc) (hc : S1024.ShapeCasts S1024x1) (p : Fin 1024) :
    shapeCast S1024x1 (multiReduction .add [1] S1024 y 0x00000000#32 h hφ hacc) hc (ix2 p (0 : Fin 1))
      = ∑ d : Fin 512, y (ix2 p d) := by
  rw [shapeCast_apply _ hc (ix2 p (0 : Fin 1)) (ix1 p) (by rw [Shape.rowMajor_val_one, Shape.rowMajor_val_two]; show p.val = p.val * 1 + 0; omega)]
  rw [Ideal.multiReduction_add_single]
  refine Finset.sum_congr rfl fun d _ => ?_
  congr 1
  funext a
  match a with
  | ⟨0, _⟩ => rfl
  | ⟨1, _⟩ => rfl

/-- THE BODY'S RESULT at entry (p, k) of its tile, from the three blocks it loads: twice the inner product of row p of
    the query block with row k of the table, less once the squared norm of row p, less once the k-th squared norm. -/
theorem k1_pay1_apply (x0 : Vec Ideal S1024x512 .f32) (x1 : Vec Ideal S1024x512 .bf16) (x2 : Vec Ideal S1x1024 .f32)
    (p : Fin 1024) (k : Fin 1024) :
    k1_pay1 (F := Ideal) x0 x1 x2 (ix2 p k)
      = 2 * (∑ d : Fin 512, x0 (ix2 p d) * x1 (ix2 k d)) - 1 * (∑ d : Fin 512, x0 (ix2 p d) * x0 (ix2 p d))
          - 1 * x2 (ix2 (0 : Fin 1) k) := by
  unfold k1_pay1
  simp only [subf_apply, mulf_apply, broadcast_apply]
  rw [dotR1_apply]
  rw [broadcastTo_apply _ broadcasts_S1024x1_S1024x1024 (ix2 p k) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else k.val; rw [if_pos rfl])]
  rw [broadcastTo_apply _ broadcasts_S1x1024_S1024x1024 (ix2 p k) (ix2 (0 : Fin 1) k) (fun a => by
    match a with
    | ⟨0, _⟩ => show (0 : Nat) = if (1 : Nat) = 1 then 0 else p.val; rw [if_pos rfl]
    | ⟨1, _⟩ => show k.val = if (1024 : Nat) = 1 then 0 else k.val; rw [if_neg (by decide)])]
  simp only [mulf_apply, broadcast_apply, Ideal.ofBits_def, lit_two_r1, lit_one_r1]
  refine congrArg₂ (· - ·) (congrArg₂ (· - ·) ?_ ?_) ?_
  · rw [shapeCast_self]
    simp only [truncf_apply]
  · exact congrArg (1 * ·) (rowsumR1_apply (mulf x0 x0) _ _ _ _ p)
  · rw [shapeCast_self]

/-! ## From tiles to the array -/

theorem hzR1 : (![0, 0] : Fin 2 → Nat) = fun _ => 0 := funext fun a => by fin_cases a <;> rfl

/-- The block indices over the grid: the query window and the output window move down the rows with the point, the
    table and the squared norms stay whole. -/
theorem idxFactsR1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of tile t is a row of the array: 1024·t + p < 65536. -/
theorem rowR1_lt (t : Fin cfg1.N) (p : Fin 1024) : t.val * 1024 + p.val < 65536 := by
  have h : t.val < cfg1.N := t.isLt
  have hN : cfg1.N = 64 := N_1
  have := p.isLt
  omega

/-- The query block at point t, entry (p, d): row 1024·t + p of the query array. -/
theorem iblk1_0_apply (c : Dev nD) (t : Fin cfg1.N) (p : Fin 1024) (d : Fin 512) :
    iblk1 V c 0 t (ix2 p d) = V c main_arg2 (ix2 (⟨t.val * 1024 + p.val, rowR1_lt t p⟩ : Fin 65536) d) := by
  obtain ⟨e00, e01, -⟩ := idxFactsR1 t
  show V c main_arg2 (((cfg1.win 0).blk t).view.emb (ix2 p d)) = _
  refine congrArg (V c main_arg2) ?_
  funext a; apply Fin.ext
  match a with
  | ⟨0, _⟩ => show win1_0.index t (0 : Fin 2) * 1024 + 1 * p.val = t.val * 1024 + p.val; omega
  | ⟨1, _⟩ => show win1_0.index t (1 : Fin 2) * 512 + 1 * d.val = d.val; omega

/-- The table's block at every point is the table. -/
theorem iblk1_1_apply (c : Dev nD) (t : Fin cfg1.N) (k : Fin 1024) (d : Fin 512) :
    iblk1 V c 1 t (ix2 k d) = V c main_v23 (ix2 k d) := by
  obtain ⟨-, -, e10, e11, -⟩ := idxFactsR1 t
  show V c main_v23 (((cfg1.win 1).blk t).view.emb (ix2 k d)) = _
  refine congrArg (V c main_v23) ?_
  funext a; apply Fin.ext
  match a with
  | ⟨0, _⟩ => show win1_1.index t (0 : Fin 2) * 1024 + 1 * k.val = k.val; omega
  | ⟨1, _⟩ => show win1_1.index t (1 : Fin 2) * 512 + 1 * d.val = d.val; omega

/-- The squared norms' block at every point is the row of squared norms. -/
theorem iblk1_2_apply (c : Dev nD) (t : Fin cfg1.N) (k : Fin 1024) :
    iblk1 V c 2 t (ix2 (0 : Fin 1) k) = V c main_v28 (ix2 (0 : Fin 1) k) := by
  obtain ⟨-, -, -, -, e20, e21, -⟩ := idxFactsR1 t
  show V c main_v28 (((cfg1.win 2).blk t).view.emb (ix2 (0 : Fin 1) k)) = _
  refine congrArg (V c main_v28) ?_
  funext a; apply Fin.ext
  match a with
  | ⟨0, _⟩ => show win1_2.index t (0 : Fin 2) * 1 + 1 * 0 = 0; omega
  | ⟨1, _⟩ => show win1_2.index t (1 : Fin 2) * 1024 + 1 * k.val = k.val; omega

/-- The whole logits array as one function of the three arrays the region reads. -/
def logitsR1 (c : Dev nD) : S65536x1024.Idx → EReal := fun i =>
  Cert.Spec.logitK (fun n d => V c main_arg2 (ix2 n d)) (fun k d => V c main_v23 (ix2 k d)) (fun k => V c main_v28 (ix2 (0 : Fin 1) k))
    ⟨(i 0).val, idx2_lt0 i⟩ ⟨(i 1).val, idx2_lt1 i⟩

/-- WHAT POINT t WRITES BACK is tile t of that array. -/
theorem flushedR1_eq (c : Dev nD) (t : Fin cfg1.N) :
    (dat1 (F := Ideal) V c).flushed 3 t = ((cfg1.win 3).blk t).view.read (Elt Ideal) (logitsR1 V c) := by
  show (cfg1.win 3).cut (grid1.coords t) ((dat1 (F := Ideal) V c).after 3 t) = _
  rw [after1_3]
  unfold out1_3
  rw [View.canon_unit_zero hzR1]
  simp only [View.ld_unit_zero (S := S1024x512) hzR1, View.ld_unit_zero (S := S1x1024) hzR1]
  obtain ⟨-, -, -, -, -, -, e30, e31⟩ := idxFactsR1 t
  funext j
  have hj0 : (j 0).val < 1024 := (j 0).isLt
  have hj1 : (j 1).val < 1024 := (j 1).isLt
  have hx : (cfg1.win 3).xinj (grid1.coords t) j = ix2 (⟨(j 0).val, hj0⟩ : Fin 1024) (⟨(j 1).val, hj1⟩ : Fin 1024) := by
    funext a
    match a with
    | ⟨0, _⟩ => rfl
    | ⟨1, _⟩ => rfl
  have hG : logitsR1 V c (((cfg1.win 3).blk t).view.emb j)
      = Cert.Spec.logitK (fun n d => V c main_arg2 (ix2 n d)) (fun k d => V c main_v23 (ix2 k d)) (fun k => V c main_v28 (ix2 (0 : Fin 1) k))
          (⟨t.val * 1024 + (j 0).val, rowR1_lt t ⟨(j 0).val, hj0⟩⟩ : Fin 65536) (⟨(j 1).val, hj1⟩ : Fin 1024) := by
    unfold logitsR1
    refine congrArg₂ _ (Fin.ext ?_) (Fin.ext ?_)
    · show win1_3.index t (0 : Fin 2) * 1024 + 1 * (j 0).val = t.val * 1024 + (j 0).val; omega
    · show win1_3.index t (1 : Fin 2) * 1024 + 1 * (j 1).val = (j 1).val; omega
  show k1_pay1 (F := Ideal) (iblk1 V c 0 t) (iblk1 V c 1 t) (iblk1 V c 2 t) ((cfg1.win 3).xinj (grid1.coords t) j)
      = logitsR1 V c (((cfg1.win 3).blk t).view.emb j)
  rw [hx, k1_pay1_apply, hG]
  unfold Cert.Spec.logitK
  simp only [iblk1_0_apply, iblk1_1_apply, iblk1_2_apply]

/-- An index of the array is in point t's tile iff each coordinate is in the tile's range on its axis. -/
theorem memBlkR1 (t : Fin cfg1.N) (i : S65536x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v29).slice (win1_3.rect t)).set ↔ _
  rw [View.set_slice_whole, Rect.mem_set_unit]
  exact Iff.rfl

/-- THE TILES COVER THE ARRAY: row n lies in the tile of point n / 1024. -/
theorem coverR1 (i : S65536x1024.Idx) :
    ∃ t : Fin cfg1.N, (cfg1.win 3).flush t = true ∧ i ∈ ((cfg1.win 3).blk t).view.set := by
  have hi0 : (i 0).val < 65536 := idx2_lt0 i
  have hi1 : (i 1).val < 1024 := idx2_lt1 i
  have hN : cfg1.N = 64 := N_1
  have ht : (i 0).val / 1024 < cfg1.N := by rw [hN]; omega
  obtain ⟨-, -, -, -, -, -, e30, e31⟩ := idxFactsR1 ⟨(i 0).val / 1024, ht⟩
  refine ⟨⟨(i 0).val / 1024, ht⟩, flush1_3 _, ?_⟩
  rw [memBlkR1]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e30]
    show (i 0).val / 1024 * 1024 ≤ (i 0).val ∧ (i 0).val < (i 0).val / 1024 * 1024 + 1024
    omega
  | ⟨1, _⟩ =>
    show win1_3.index ⟨(i 0).val / 1024, ht⟩ (1 : Fin 2) * 1024 ≤ (i 1).val ∧ (i 1).val < win1_3.index ⟨(i 0).val / 1024, ht⟩ (1 : Fin 2) * 1024 + 1024
    rw [e31]
    omega

/-- THE LOGITS ARRAY after region 1, at entry (n, k). -/
theorem logits_apply (c : Dev nD) (n : Fin 65536) (k : Fin 1024) :
    (dat1 (F := Ideal) V c).arrAt 3 cfg1.N (ix2 n k)
      = Cert.Spec.logitK (fun n d => V c main_arg2 (ix2 n d)) (fun k d => V c main_v23 (ix2 k d)) (fun k => V c main_v28 (ix2 (0 : Fin 1) k)) n k := by
  have h := (dat1 (F := Ideal) V c).arrAt_eq_of_cover 3 (logitsR1 V c) (fun t _ => flushedR1_eq V c t) coverR1
  rw [h]
  rfl

end Cert.KernelIdeal.Hand

end
-- ==== Proof.LibScatter.lean ====
/-
  General lemmas on the host's `stablehlo.scatter` with one scattered axis (what `x.at[idx].add(v)` and
  `segment_sum` lower to): where an update lands, and what an integer scatter of ones computes.
  An update lands at the operand index whose scattered coordinate is the start index read as a SIGNED integer
  (not clamped: an index outside the operand lands nowhere) and whose window coordinates are the update's.
  An integer `add` scatter of ones over any dimension numbers adds, at each operand index, the number of updates
  that land there (modulo 2^32).
-/
import Idealize.ShloMosaic.PureOps
import Idealize.ShloMosaic.Lib.ValueIdx
import Mathlib.Data.Fintype.Card
import Mathlib.Data.List.FinRange

noncomputable section

namespace Cert.LibScatter

open Idealize.ShloMosaic Idealize.ShloMosaic.ValueIdx

/-- One scattered axis, a column of start indices: the window of update `j` starts, on the operand's one axis, at start index
    `j 0` read as a signed integer. -/
private theorem start_col1 {K N : Nat} (d : ScatterDims (⟨1, ![K]⟩ : Shape) (⟨2, ![N, 1]⟩ : Shape) (⟨1, ![N]⟩ : Shape))
    (h1 : d.updateWindowDims = []) (h3 : d.scatterDimsToOperandDims = [0]) (h4 : d.indexVectorDim = 1)
    {w : Nat} (idx : IVec (⟨2, ![N, 1]⟩ : Shape) w) (j : (⟨1, ![N]⟩ : Shape).Idx) (a : Fin 1) :
    d.start j idx a = (idx (ix2 (j 0) (0 : Fin 1))).toInt := by
  obtain ⟨uw, iw, sd, iv, wf⟩ := d
  dsimp only at h1 h3 h4
  subst h1 h3 h4
  have ha : a ∈ ([0] : List (Fin 1)) := by rw [Subsingleton.elim a 0]; exact List.mem_singleton.2 rfl
  unfold ScatterDims.start
  rw [dif_pos ha]
  congr 2
  funext b
  unfold ScatterDims.siIdx
  match b with
  | ⟨0, _⟩ =>
    rw [dif_neg (by show ¬ (0 : ℕ) = 1; decide)]
    unfold ScatterDims.siCoord
    apply Fin.ext
    simp only [Fin.val_cast]
    congr 2
  | ⟨1, _⟩ =>
    rw [dif_pos rfl]
    apply Fin.ext
    show List.idxOf a [0] = 0
    rw [Subsingleton.elim a 0]
    simp

/-- With the operand's one axis inserted there is no window axis: every window coordinate is zero. -/
private theorem window_col1 {K N : Nat} (d : ScatterDims (⟨1, ![K]⟩ : Shape) (⟨2, ![N, 1]⟩ : Shape) (⟨1, ![N]⟩ : Shape))
    (h2 : d.insertedWindowDims = [0])
    (j : (⟨1, ![N]⟩ : Shape).Idx) (a : Fin 1) :
    d.window j a = 0 := by
  obtain ⟨uw, iw, sd, iv, wf⟩ := d
  dsimp only at h2
  subst h2
  unfold ScatterDims.window
  rw [dif_neg]
  rw [Subsingleton.elim a 0]
  intro h
  have := (List.mem_filter.1 h).2
  simp at this

/-- The landing index in closed form: update `j` lands at its signed start index when that lies in `[0, K)`, and nowhere otherwise. -/
private theorem resultIdx?_col1_eq {K N : Nat} (d : ScatterDims (⟨1, ![K]⟩ : Shape) (⟨2, ![N, 1]⟩ : Shape) (⟨1, ![N]⟩ : Shape))
    (h1 : d.updateWindowDims = []) (h2 : d.insertedWindowDims = [0]) (h3 : d.scatterDimsToOperandDims = [0]) (h4 : d.indexVectorDim = 1)
    {w : Nat} (idx : IVec (⟨2, ![N, 1]⟩ : Shape) w) (j : (⟨1, ![N]⟩ : Shape).Idx) :
    d.resultIdx? j idx =
      if h : 0 ≤ (idx (ix2 (j 0) (0 : Fin 1))).toInt ∧ (idx (ix2 (j 0) (0 : Fin 1))).toInt < (K : ℤ) then
        some (ix1 (⟨(idx (ix2 (j 0) (0 : Fin 1))).toInt.toNat, by omega⟩ : Fin K)) else none := by
  have hs := fun a => start_col1 d h1 h3 h4 idx j a
  have hw := fun a => window_col1 d h2 j a
  unfold ScatterDims.resultIdx?
  by_cases hS : 0 ≤ (idx (ix2 (j 0) (0 : Fin 1))).toInt ∧ (idx (ix2 (j 0) (0 : Fin 1))).toInt < (K : ℤ)
  · have h : ∀ a : Fin 1, 0 ≤ d.start j idx a + d.window j a ∧
        d.start j idx a + d.window j a < ((⟨1, ![K]⟩ : Shape).size a : ℤ) := by
      intro a
      rw [hs a, hw a, Subsingleton.elim a 0]
      show 0 ≤ _ + ((0 : ℕ) : ℤ) ∧ _ + ((0 : ℕ) : ℤ) < (K : ℤ)
      omega
    rw [dif_pos h, dif_pos hS]
    congr 1
    funext a
    apply Fin.ext
    rw [Subsingleton.elim a 0]
    show (d.start j idx 0 + (d.window j 0 : ℤ)).toNat = (idx (ix2 (j 0) (0 : Fin 1))).toInt.toNat
    rw [hs 0, hw 0]
    simp
  · rw [dif_neg hS, dif_neg]
    intro h
    apply hS
    have h0 := h 0
    rw [hs 0, hw 0] at h0
    change 0 ≤ _ + ((0 : ℕ) : ℤ) ∧ _ + ((0 : ℕ) : ℤ) < (K : ℤ) at h0
    omega

/-- A rank-1 operand scattered into along its one axis by a column of start indices (`update_window_dims = []`,
    `inserted_window_dims = [0]`, `scatter_dims_to_operand_dims = [0]`, `index_vector_dim = 1`): update `n` lands at
    `k` exactly when start index `n`, read signed, is `k`. -/
theorem resultIdx?_col1 {K N : Nat} (d : ScatterDims (⟨1, ![K]⟩ : Shape) (⟨2, ![N, 1]⟩ : Shape) (⟨1, ![N]⟩ : Shape))
    (h1 : d.updateWindowDims = []) (h2 : d.insertedWindowDims = [0]) (h3 : d.scatterDimsToOperandDims = [0]) (h4 : d.indexVectorDim = 1)
    {w : Nat} (idx : IVec (⟨2, ![N, 1]⟩ : Shape) w) (n : Fin N) (k : Fin K) :
    d.resultIdx? (ix1 n) idx = some (ix1 k) ↔ (idx (ix2 n (0 : Fin 1))).toInt = (k.val : ℤ) := by
  rw [resultIdx?_col1_eq d h1 h2 h3 h4]
  change (if h : 0 ≤ (idx (ix2 n (0 : Fin 1))).toInt ∧ (idx (ix2 n (0 : Fin 1))).toInt < (K : ℤ) then
        some (ix1 (⟨(idx (ix2 n (0 : Fin 1))).toInt.toNat, by omega⟩ : Fin K)) else none) = some (ix1 k) ↔ _
  have hk := k.isLt
  split_ifs with h
  · rw [Option.some.injEq]
    constructor
    · intro hf
      have h0 := congrArg Fin.val (congrFun hf 0)
      change (idx (ix2 n (0 : Fin 1))).toInt.toNat = k.val at h0
      omega
    · intro he
      congr 1
      apply Fin.ext
      show (idx (ix2 n (0 : Fin 1))).toInt.toNat = k.val
      omega
  · constructor
    · intro hf; exact absurd hf (by simp)
    · intro he; exact absurd ⟨by omega, by omega⟩ h

/-- Rows as windows: on the scattered axis the window of update `j` starts at start index `j 0` read as a signed integer. -/
private theorem start_col2_zero {K D N : Nat} (d : ScatterDims (⟨2, ![K, D]⟩ : Shape) (⟨2, ![N, 1]⟩ : Shape) (⟨2, ![N, D]⟩ : Shape))
    (h1 : d.updateWindowDims = [1]) (h3 : d.scatterDimsToOperandDims = [0]) (h4 : d.indexVectorDim = 1)
    {w : Nat} (idx : IVec (⟨2, ![N, 1]⟩ : Shape) w) (j : (⟨2, ![N, D]⟩ : Shape).Idx) :
    d.start j idx 0 = (idx (ix2 (j 0) (0 : Fin 1))).toInt := by
  obtain ⟨uw, iw, sd, iv, wf⟩ := d
  dsimp only at h1 h3 h4
  subst h1 h3 h4
  have ha : (0 : Fin 2) ∈ ([0] : List (Fin 2)) := List.mem_singleton.2 rfl
  unfold ScatterDims.start
  rw [dif_pos ha]
  congr 2
  funext b
  unfold ScatterDims.siIdx
  match b with
  | ⟨0, _⟩ =>
    rw [dif_neg (by show ¬ (0 : ℕ) = 1; decide)]
    unfold ScatterDims.siCoord
    apply Fin.ext
    simp only [Fin.val_cast]
    congr 2
  | ⟨1, _⟩ =>
    rw [dif_pos rfl]
    apply Fin.ext
    show List.idxOf (0 : Fin 2) [0] = 0
    simp

/-- On the window axis, which the map does not name, the start is zero. -/
private theorem start_col2_one {K D N : Nat} (d : ScatterDims (⟨2, ![K, D]⟩ : Shape) (⟨2, ![N, 1]⟩ : Shape) (⟨2, ![N, D]⟩ : Shape))
    (h3 : d.scatterDimsToOperandDims = [0])
    {w : Nat} (idx : IVec (⟨2, ![N, 1]⟩ : Shape) w) (j : (⟨2, ![N, D]⟩ : Shape).Idx) :
    d.start j idx 1 = 0 := by
  obtain ⟨uw, iw, sd, iv, wf⟩ := d
  dsimp only at h3
  subst h3
  unfold ScatterDims.start
  rw [dif_neg]
  show (1 : Fin 2) ∉ ([0] : List (Fin 2))
  decide

/-- The scattered axis is inserted: its window coordinate is zero. -/
private theorem window_col2_zero {K D N : Nat} (d : ScatterDims (⟨2, ![K, D]⟩ : Shape) (⟨2, ![N, 1]⟩ : Shape) (⟨2, ![N, D]⟩ : Shape))
    (h2 : d.insertedWindowDims = [0])
    (j : (⟨2, ![N, D]⟩ : Shape).Idx) :
    d.window j 0 = 0 := by
  obtain ⟨uw, iw, sd, iv, wf⟩ := d
  dsimp only at h2
  subst h2
  unfold ScatterDims.window
  rw [dif_neg]
  intro h
  have := (List.mem_filter.1 h).2
  simp at this

/-- On the window axis the window coordinate is the update's second coordinate. -/
private theorem window_col2_one {K D N : Nat} (d : ScatterDims (⟨2, ![K, D]⟩ : Shape) (⟨2, ![N, 1]⟩ : Shape) (⟨2, ![N, D]⟩ : Shape))
    (h1 : d.updateWindowDims = [1]) (h2 : d.insertedWindowDims = [0])
    (j : (⟨2, ![N, D]⟩ : Shape).Idx) :
    d.window j 1 = (j 1).val := by
  obtain ⟨uw, iw, sd, iv, wf⟩ := d
  dsimp only at h1 h2
  subst h1 h2
  have ha : (1 : Fin 2) ∈ (⟨2, ![K, D]⟩ : Shape).kept [0] := by
    unfold Shape.kept
    rw [List.mem_filter]
    exact ⟨List.mem_finRange _, by simp⟩
  unfold ScatterDims.window
  rw [dif_pos ha]
  congr 2

/-- The landing index in closed form: element `j` of the updates lands in row "signed start index `j 0`", at its own column,
    when that row lies in `[0, K)`, and nowhere otherwise (the column is always in range). -/
private theorem resultIdx?_col2_eq {K D N : Nat} (d : ScatterDims (⟨2, ![K, D]⟩ : Shape) (⟨2, ![N, 1]⟩ : Shape) (⟨2, ![N, D]⟩ : Shape))
    (h1 : d.updateWindowDims = [1]) (h2 : d.insertedWindowDims = [0]) (h3 : d.scatterDimsToOperandDims = [0]) (h4 : d.indexVectorDim = 1)
    {w : Nat} (idx : IVec (⟨2, ![N, 1]⟩ : Shape) w) (j : (⟨2, ![N, D]⟩ : Shape).Idx) :
    d.resultIdx? j idx =
      if h : 0 ≤ (idx (ix2 (j 0) (0 : Fin 1))).toInt ∧ (idx (ix2 (j 0) (0 : Fin 1))).toInt < (K : ℤ) then
        some (ix2 (⟨(idx (ix2 (j 0) (0 : Fin 1))).toInt.toNat, by omega⟩ : Fin K) (j 1 : Fin D)) else none := by
  have hs0 := start_col2_zero d h1 h3 h4 idx j
  have hs1 := start_col2_one d h3 idx j
  have hw0 := window_col2_zero d h2 j
  have hw1 := window_col2_one d h1 h2 j
  have hj1 : (j 1).val < D := idx2_lt1 j
  unfold ScatterDims.resultIdx?
  by_cases hS : 0 ≤ (idx (ix2 (j 0) (0 : Fin 1))).toInt ∧ (idx (ix2 (j 0) (0 : Fin 1))).toInt < (K : ℤ)
  · have h : ∀ a : Fin 2, 0 ≤ d.start j idx a + d.window j a ∧
        d.start j idx a + d.window j a < ((⟨2, ![K, D]⟩ : Shape).size a : ℤ) := by
      intro a
      match a with
      | ⟨0, _⟩ =>
        show 0 ≤ d.start j idx 0 + (d.window j 0 : ℤ) ∧ d.start j idx 0 + (d.window j 0 : ℤ) < (K : ℤ)
        rw [hs0, hw0]
        omega
      | ⟨1, _⟩ =>
        show 0 ≤ d.start j idx 1 + (d.window j 1 : ℤ) ∧ d.start j idx 1 + (d.window j 1 : ℤ) < (D : ℤ)
        rw [hs1, hw1]
        omega
    rw [dif_pos h, dif_pos hS]
    congr 1
    funext a
    apply Fin.ext
    match a with
    | ⟨0, _⟩ =>
      show (d.start j idx 0 + (d.window j 0 : ℤ)).toNat = (idx (ix2 (j 0) (0 : Fin 1))).toInt.toNat
      rw [hs0, hw0]
      simp
    | ⟨1, _⟩ =>
      show (d.start j idx 1 + (d.window j 1 : ℤ)).toNat = (j 1).val
      rw [hs1, hw1]
      simp
  · have hn : ¬ ∀ a : Fin 2, 0 ≤ d.start j idx a + d.window j a ∧
        d.start j idx a + d.window j a < ((⟨2, ![K, D]⟩ : Shape).size a : ℤ) := by
      intro h
      apply hS
      have h0 := h 0
      rw [hs0, hw0] at h0
      change 0 ≤ _ + ((0 : ℕ) : ℤ) ∧ _ + ((0 : ℕ) : ℤ) < (K : ℤ) at h0
      omega
    rw [dif_neg hS, dif_neg hn]
    rfl

/-- A rank-2 operand scattered into along its first axis, whole rows as windows (`update_window_dims = [1]`,
    `inserted_window_dims = [0]`, `scatter_dims_to_operand_dims = [0]`, `index_vector_dim = 1`): element `(n, e)` of the
    updates lands at `(k, e')` exactly when start index `n`, read signed, is `k` and `e = e'`. -/
theorem resultIdx?_col2 {K D N : Nat} (d : ScatterDims (⟨2, ![K, D]⟩ : Shape) (⟨2, ![N, 1]⟩ : Shape) (⟨2, ![N, D]⟩ : Shape))
    (h1 : d.updateWindowDims = [1]) (h2 : d.insertedWindowDims = [0]) (h3 : d.scatterDimsToOperandDims = [0]) (h4 : d.indexVectorDim = 1)
    {w : Nat} (idx : IVec (⟨2, ![N, 1]⟩ : Shape) w) (n : Fin N) (e : Fin D) (k : Fin K) (e' : Fin D) :
    d.resultIdx? (ix2 n e) idx = some (ix2 k e') ↔ ((idx (ix2 n (0 : Fin 1))).toInt = (k.val : ℤ) ∧ e = e') := by
  rw [resultIdx?_col2_eq d h1 h2 h3 h4]
  change (if h : 0 ≤ (idx (ix2 n (0 : Fin 1))).toInt ∧ (idx (ix2 n (0 : Fin 1))).toInt < (K : ℤ) then
        some (ix2 (⟨(idx (ix2 n (0 : Fin 1))).toInt.toNat, by omega⟩ : Fin K) e) else none) = some (ix2 k e') ↔ _
  have hk := k.isLt
  split_ifs with h
  · rw [Option.some.injEq]
    constructor
    · intro hf
      have h0 := congrArg Fin.val (congrFun hf 0)
      have h1' := congrFun hf 1
      change (idx (ix2 n (0 : Fin 1))).toInt.toNat = k.val at h0
      change e = e' at h1'
      exact ⟨by omega, h1'⟩
    · rintro ⟨he, rfl⟩
      have hh : (⟨(idx (ix2 n (0 : Fin 1))).toInt.toNat, by omega⟩ : Fin K) = k := by
        apply Fin.ext
        show (idx (ix2 n (0 : Fin 1))).toInt.toNat = k.val
        omega
      rw [hh]
  · constructor
    · intro hf; exact absurd hf (by simp)
    · rintro ⟨he, -⟩; exact absurd ⟨by omega, by omega⟩ h

/-- The fold of the scatter step over ANY list of update positions, read at operand index `i`: the start value there plus the
    number of listed positions whose update lands at `i` (as a 32-bit word). By induction on the list: a position that lands
    at `i` adds one there (`ofNat (n + 1) = ofNat n + 1`), a position that lands elsewhere or nowhere leaves the value at `i`. -/
private theorem foldl_scatter_ones {s si u : Shape} {w : Nat} (d : ScatterDims s si u) (idx : IVec si w) (i : s.Idx)
    (L : List (Fin u.numel)) (x : s.Idx → BitVec 32) :
    (L.foldl (fun r n =>
      match d.resultIdx? (u.rowMajor.symm n) idx with
      | some i => fun i' => if i' = i then IntOp.addi (r i) ((fun _ => 1#32 : u.Idx → BitVec 32) (u.rowMajor.symm n)) else r i'
      | none => r) x) i
    = x i + BitVec.ofNat 32 (L.filter (fun n => d.resultIdx? (u.rowMajor.symm n) idx = some i)).length := by
  induction L generalizing x with
  | nil => simp
  | cons n L ih =>
    rw [List.foldl_cons, ih, List.filter_cons]
    cases hr : d.resultIdx? (u.rowMajor.symm n) idx with
    | none => simp
    | some k =>
      by_cases hk : k = i
      · subst hk
        simp only [if_true, decide_true, List.length_cons, IntOp.addi]
        rw [BitVec.add_assoc, BitVec.add_comm (1#32), BitVec.ofNat_add]
      · have hk' : ¬ (i = k) := fun h => hk h.symm
        simp [hk, hk']

/-- An integer `add` scatter of ones: at each operand index, the operand's word plus the number of updates that land
    there (as a 32-bit word). -/
theorem scatter_addi_ones_apply {s si u : Shape} {w : Nat} (d : ScatterDims s si u) (x : s.Idx → BitVec 32) (idx : IVec si w) (i : s.Idx) :
    Host.scatter d IntOp.addi x idx (fun _ => 1#32) i
      = x i + BitVec.ofNat 32 (Finset.univ.filter (fun j : u.Idx => d.resultIdx? j idx = some i)).card := by
  unfold Host.scatter
  refine Eq.trans (foldl_scatter_ones d idx i _ x) ?_
  congr 2
  -- the positions in row-major order are all of `Fin u.numel`, each once; the row-major bijection carries the update
  -- indices that land at `i` onto the positions that do, so the two counts agree
  rw [← Finset.card_map u.rowMajor.toEmbedding, Finset.card_def]
  have hF : (Finset.map u.rowMajor.toEmbedding (Finset.univ.filter (fun j : u.Idx => d.resultIdx? j idx = some i)))
      = Finset.univ.filter (fun n : Fin u.numel => d.resultIdx? (u.rowMajor.symm n) idx = some i) := by
    ext n
    simp only [Finset.mem_map, Finset.mem_filter, Finset.mem_univ, true_and, Equiv.coe_toEmbedding]
    constructor
    · rintro ⟨j, hj, rfl⟩
      simpa using hj
    · intro hn
      exact ⟨u.rowMajor.symm n, hn, by simp⟩
  rw [hF, Finset.filter_val]
  show _ = (Multiset.filter _ (↑(List.finRange u.numel) : Multiset (Fin u.numel))).card
  rw [Multiset.filter_coe, Multiset.coe_card]

end Cert.LibScatter

end
-- ==== Proof.ValHost.lean ====
/-
  The host operations of the kernel's program at the ideal instance, read at an index: what the two regions are
  entered with, as functions of the launch memory and of the partial-sums array region 0 leaves. The labels'
  reshape; the two halves of the partial sums sliced out and added; the count of each class as an integer
  scatter of ones at the labels clipped at zero (for labels that are not negative, the number of rows of the class);
  the division by max(count, 1); the squared norms by a sum along the feature axis, transposed into a row.
-/
import proofs.«401434_j37297495999027_3_alg».proof.Proof.Run
import proofs.«401434_j37297495999027_3_alg».proof.Proof.Spec
import proofs.«401434_j37297495999027_3_alg».proof.Proof.LibScatter
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The partial-sums array region 0 leaves, the prototype table and the squared-norm row region 1 is entered with,
    as arrays of extended reals. -/
abbrev partArr (c : Dev nD) : S2x1024x512.Idx → EReal := X0 m c main_v1
abbrev protoArr (c : Dev nD) : S1024x512.Idx → EReal := E1 m c main_v23
abbrev psqArr (c : Dev nD) : S1x1024.Idx → EReal := E1 m c main_v28

/-- Region 0 finds the support features as launched, -/
theorem E0_arg0 (c : Dev nD) : E0 m c main_arg0 = m ((c.tc : Thread nD τ).loc main_arg0) :=
  StableHlo.after_of_writes_sub hostOps0 _ hostOps0_writes (by decide)

/-- and the labels laid out as one row. -/
theorem E0_v0 (c : Dev nD) (n : Fin 65536) : E0 m c main_v0 (ix2 (0 : Fin 1) n) = m ((c.tc : Thread nD τ).loc main_arg1) (ix1 n) := by
  have e : E0 m c main_v0 = shapeCast S1x65536 (m ((c.tc : Thread nD τ).loc main_arg1)) shapeCasts_S65536_S1x65536 := by
    show StableHlo.after hostOps0 (B0 m c) (Proc.devRef .tc main_v0) = _
    after_results
    rfl
  rw [e]
  exact shapeCast_a_1a_apply _ _ _ _

/-- Region 1 finds the query features as launched, -/
theorem E1_arg2 (c : Dev nD) : E1 m c main_arg2 = m ((c.tc : Thread nD τ).loc main_arg2) :=
  calc B5 m c (Proc.devRef .tc main_arg2)
    _ = B4 m c (Proc.devRef .tc main_arg2) := StableHlo.after_of_writes_sub hostOps1_2 _ hostOps1_2_writes (by decide)
    _ = B3 m c (Proc.devRef .tc main_arg2) := StableHlo.after_of_writes_sub hostOps1_1 _ hostOps1_1_writes (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

namespace ValHost

/-- The clipped labels wrapped at 1024 where negative, as the operations compute them from the clipped labels. -/
abbrev wrapped (l : S65536.Idx → BitVec 32) : S65536.Idx → BitVec 32 :=
  select (cmpi .slt l (broadcastInDim S65536 ![] bcast_S_S65536 (constantI S_ 32 0#32)))
    (addi l (broadcastInDim S65536 ![] bcast_S_S65536 (constantI S_ 32 1024#32))) l

/-! ### The last host stretch cut in three: the counts; the division; the squared norms -/

/-- The operations up to the integer scatter, -/
abbrev opsA : List (HloOp τ sig (Elt Ideal)) := (hostOps1_2 (F := Ideal)).take 11
/-- those up to the prototype table, -/
abbrev opsB : List (HloOp τ sig (Elt Ideal)) := ((hostOps1_2 (F := Ideal)).drop 11).take 8
/-- and the rest. -/
abbrev opsC : List (HloOp τ sig (Elt Ideal)) := ((hostOps1_2 (F := Ideal)).drop 11).drop 8

theorem ops_split : (hostOps1_2 (F := Ideal) : List (HloOp τ sig (Elt Ideal))) = opsA ++ (opsB ++ opsC) := by
  rw [List.take_append_drop, List.take_append_drop]

theorem opsA_v16 (V : Valuation τ sig (Elt Ideal)) :
    (StableHlo.after opsA V (Proc.devRef .tc main_v16) : S1024.Idx → BitVec 32)
      = Host.scatter scatter_S1024_S65536x1_S65536_n_0_0_1 IntOp.addi (V (Proc.devRef .tc main_v7) : S1024.Idx → BitVec 32)
          (broadcastInDim S65536x1 ![0] bcast_S65536_S65536x1_0 (wrapped (V (Proc.devRef .tc main_v8))))
          (broadcastInDim S65536 ![] bcast_S_S65536 (constantI S_ 32 1#32)) := by
  simp only [opsA, hostOps1_2, List.take_succ_cons, List.take_zero]
  after_results

theorem opsA_v6 (V : Valuation τ sig (Elt Ideal)) :
    StableHlo.after opsA V (Proc.devRef .tc main_v6) = V (Proc.devRef .tc main_v6) := by
  simp only [opsA, hostOps1_2, List.take_succ_cons, List.take_zero]
  after_results

theorem opsB_v23 (W : Valuation τ sig (Elt Ideal)) :
    (StableHlo.after opsB W (Proc.devRef .tc main_v23) : S1024x512.Idx → EReal)
      = truncf .bf16 (Host.divf (F := Ideal) (W (Proc.devRef .tc main_v6) : S1024x512.Idx → EReal)
          (broadcastInDim S1024x512 ![0, 1] bcast_S1024x1_S1024x512_0_1
            (maximumf (F := Ideal) (broadcastInDim S1024x1 ![0] bcast_S1024_S1024x1_0 (sitofp (F := Ideal) .f32 (W (Proc.devRef .tc main_v16) : S1024.Idx → BitVec 32)))
              (broadcastInDim S1024x1 ![] bcast_S_S1024x1 (constant (F := Ideal) S_ .f32 0x3F800000#32))))) bitsLt_bf16_f32 := by
  simp only [opsB, hostOps1_2, List.drop_succ_cons, List.drop_zero, List.take_succ_cons, List.take_zero]
  after_results

theorem opsC_v23 (W : Valuation τ sig (Elt Ideal)) :
    StableHlo.after opsC W (Proc.devRef .tc main_v23) = W (Proc.devRef .tc main_v23) := by
  simp only [opsC, hostOps1_2, List.drop_succ_cons, List.drop_zero]
  after_results

theorem opsC_v28 (W : Valuation τ sig (Elt Ideal)) :
    (StableHlo.after opsC W (Proc.devRef .tc main_v28) : S1x1024.Idx → EReal)
      = transpose S1x1024 [1, 0] (broadcastInDim S1024x1 ![0] bcast_S1024_S1024x1_0
          (Host.reduceAdd (F := Ideal) (mulf (extf .f32 (W (Proc.devRef .tc main_v23) : S1024x512.Idx → EReal) bitsLt_bf16_f32) (extf .f32 (W (Proc.devRef .tc main_v23) : S1024x512.Idx → EReal) bitsLt_bf16_f32))
            (constant S_ .f32 0x00000000#32) reducesTo_S1024x512_S1024_d1 h_S_)) transposes_S1024x1_S1x1024_1_0 := by
  simp only [opsC, hostOps1_2, List.drop_succ_cons, List.drop_zero]
  after_results

/-! ### The two stretches before it -/

theorem ops1_v6 (V : Valuation τ sig (Elt Ideal)) :
    (StableHlo.after (hostOps1 (F := Ideal)) V (Proc.devRef .tc main_v6) : S1024x512.Idx → EReal)
      = (addf (shapeCast S1024x512 (extractStridedSlice S1x1024x512 ![0, 0, 0] (V (Proc.devRef .tc main_v1) : S2x1024x512.Idx → EReal) slices_S2x1024x512_S1x1024x512_0_0_0) shapeCasts_S1x1024x512_S1024x512 : FVec Ideal S1024x512 .f32)
          (shapeCast S1024x512 (extractStridedSlice S1x1024x512 ![1, 0, 0] (V (Proc.devRef .tc main_v1) : S2x1024x512.Idx → EReal) slices_S2x1024x512_S1x1024x512_1_0_0) shapeCasts_S1x1024x512_S1024x512 : FVec Ideal S1024x512 .f32)) := by
  after_results
  rfl

theorem ops1_v7 (V : Valuation τ sig (Elt Ideal)) :
    (StableHlo.after (hostOps1 (F := Ideal)) V (Proc.devRef .tc main_v7) : S1024.Idx → BitVec 32)
      = broadcastInDim S1024 ![] bcast_S_S1024 (constantI S_ 32 0#32) := by
  after_results

theorem ops1_c0 (V : Valuation τ sig (Elt Ideal)) :
    (StableHlo.after (hostOps1 (F := Ideal)) V (Proc.devRef .tc main_c_0) : S_.Idx → BitVec 32) = constantI S_ 32 0#32 := by
  after_results

theorem ops11_v8 (V : Valuation τ sig (Elt Ideal)) :
    (StableHlo.after (hostOps1_1 (F := Ideal)) V (Proc.devRef .tc main_v8) : S65536.Idx → BitVec 32)
      = maxsi (broadcastInDim S65536 ![] bcast_S_S65536 (V (Proc.devRef .tc main_c_0) : S_.Idx → BitVec 32)) (V (Proc.devRef .tc main_arg1) : S65536.Idx → BitVec 32) := by
  after_results
  rfl

/-! ### The count -/

/-- A label that is not negative is its own clip at zero, and is not wrapped: 0 ≤ y gives max(0, y) = y and y < 0 false. -/
theorem wrapped_clip (y : BitVec 32) (hy : 0 ≤ y.toInt) :
    Scalar.select (IntOp.cmpi .slt (IntOp.maxsi 0#32 y) 0#32) (IntOp.addi (IntOp.maxsi 0#32 y) 1024#32) (IntOp.maxsi 0#32 y) = y := by
  have hs : y.slt 0#32 = false := by
    rw [BitVec.slt_eq_decide, BitVec.toInt_zero, decide_eq_false_iff_not, not_lt]
    exact hy
  have h1 : IntOp.maxsi 0#32 y = y := by
    unfold IntOp.maxsi
    rw [hs]
    rfl
  rw [h1]
  have h2 : IntOp.cmpi .slt y 0#32 = 0#1 := by
    show BitVec.ofBool (y.slt 0#32) = 0#1
    rw [hs]
    rfl
  rw [h2]
  exact select_zero _ _

/-- Indices of a vector are its one coordinate. -/
def idxEquiv1 (n : ℕ) : Fin n ≃ (⟨1, ![n]⟩ : Shape).Idx :=
  ⟨fun a => ix1 a, fun j => j 0, fun _ => rfl, fun j => (eq_ix1 j).symm⟩

/-- The integer scatter of ones at the wrapped clipped labels, over zeros: entry k is the number of rows whose label is k,
    as a 32-bit word, when no label is negative. -/
theorem count_apply (y : S65536.Idx → BitVec 32) (hy : ∀ n : Fin 65536, 0 ≤ (y (ix1 n)).toInt) (k : Fin 1024) :
    Host.scatter scatter_S1024_S65536x1_S65536_n_0_0_1 IntOp.addi (broadcastInDim S1024 ![] bcast_S_S1024 (constantI S_ 32 0#32))
        (broadcastInDim S65536x1 ![0] bcast_S65536_S65536x1_0 (wrapped (maxsi (broadcastInDim S65536 ![] bcast_S_S65536 (constantI S_ 32 0#32)) y)))
        (broadcastInDim S65536 ![] bcast_S_S65536 (constantI S_ 32 1#32)) (ix1 k)
      = BitVec.ofNat 32 (Cert.Spec.cnt (fun n => y (ix1 n)) k) := by
  have hu : (broadcastInDim S65536 ![] bcast_S_S65536 (constantI S_ 32 1#32) : S65536.Idx → BitVec 32) = fun _ => 1#32 := rfl
  rw [hu, Cert.LibScatter.scatter_addi_ones_apply]
  have h0 : (broadcastInDim S1024 ![] bcast_S_S1024 (constantI S_ 32 0#32) : S1024.Idx → BitVec 32) (ix1 k) = 0#32 := rfl
  rw [h0, BitVec.zero_add]
  refine congrArg (BitVec.ofNat 32) ?_
  unfold Cert.Spec.cnt
  symm
  refine Finset.card_equiv (idxEquiv1 65536) fun n => ?_
  simp only [Finset.mem_filter, Finset.mem_univ, true_and]
  show _ ↔ scatter_S1024_S65536x1_S65536_n_0_0_1.resultIdx? (ix1 n) _ = some (ix1 k)
  rw [Cert.LibScatter.resultIdx?_col1 scatter_S1024_S65536x1_S65536_n_0_0_1 rfl rfl rfl rfl]
  have e : (broadcastInDim S65536x1 ![0] bcast_S65536_S65536x1_0 (wrapped (maxsi (broadcastInDim S65536 ![] bcast_S_S65536 (constantI S_ 32 0#32)) y)))
      (ix2 n (0 : Fin 1)) = y (ix1 n) := by
    rw [broadcastInDim_apply _ bcast_S65536_S65536x1_0 _ (ix2 n (0 : Fin 1)) (ix1 n) (fun a => match a with
      | ⟨0, _⟩ => by show n.val = if (65536 : Nat) = 1 then 0 else n.val; rw [if_neg (by decide)])]
    exact wrapped_clip (y (ix1 n)) (hy n)
  rw [e]

/-! ### The divisor -/

/-- A number n ≤ 65536 as a 32-bit word, read signed and converted, then max with 1.0: max(n, 1) as a real
    (n < 2^31, so the word read signed is n; the pattern 0x3F800000 is 1). -/
theorem den_of_word (n : ℕ) (hc : n ≤ 65536) :
    max (FloatOps.sitofp (F := Ideal) .f32 (BitVec.ofNat 32 n)) (Ideal.ofBits .f32 0x3F800000#32)
      = (((max n 1 : ℕ) : ℝ) : EReal) := by
  have h232 : (2 : ℕ) ^ 32 = 4294967296 := by norm_num
  have hn : (BitVec.ofNat 32 n).toNat = n := by
    rw [BitVec.toNat_ofNat]; exact Nat.mod_eq_of_lt (by omega)
  have ht : (BitVec.ofNat 32 n).toInt = (n : ℤ) := by
    rw [BitVec.toInt_eq_toNat_of_lt (by rw [hn]; omega), hn]
  have h1 : Ideal.ofBits .f32 0x3F800000#32 = ((1 : ℝ) : EReal) := by
    simp [Ideal.ofBits, Ideal.ieee, -EReal.coe_mul]; norm_num
  have hs : FloatOps.sitofp (F := Ideal) .f32 (BitVec.ofNat 32 n) = ((((BitVec.ofNat 32 n).toInt : ℤ) : ℝ) : EReal) := rfl
  rw [hs, ht, h1, Int.cast_natCast, Nat.cast_max, Nat.cast_one, EReal.coe_strictMono.monotone.map_max]

/-- The count of a class is at most the number of rows. -/
theorem cnt_le (y : Fin 65536 → BitVec 32) (k : Fin 1024) : Cert.Spec.cnt y k ≤ 65536 := by
  unfold Cert.Spec.cnt
  exact (Finset.card_filter_le _ _).trans (by rw [Finset.card_univ, Fintype.card_fin])

theorem den_of_count (y : Fin 65536 → BitVec 32) (k : Fin 1024) :
    max (FloatOps.sitofp (F := Ideal) .f32 (BitVec.ofNat 32 (Cert.Spec.cnt y k))) (Ideal.ofBits .f32 0x3F800000#32)
      = Cert.Spec.den y k :=
  den_of_word _ (cnt_le y k)

/-! ### Region 1's entry as the operations' terms -/

theorem B5_eq (c : Dev nD) :
    B5 m c = StableHlo.after opsC (StableHlo.after opsB (StableHlo.after opsA (B4 m c))) := by
  show StableHlo.after hostOps1_2 (B4 m c) = _
  rw [ops_split, StableHlo.after_append, StableHlo.after_append]

/-- The two halves of the partial sums added. -/
abbrev sumArr (c : Dev nD) : S1024x512.Idx → EReal :=
  (addf (shapeCast S1024x512 (extractStridedSlice S1x1024x512 ![0, 0, 0] (partArr m c) slices_S2x1024x512_S1x1024x512_0_0_0) shapeCasts_S1x1024x512_S1024x512 : FVec Ideal S1024x512 .f32)
    (shapeCast S1024x512 (extractStridedSlice S1x1024x512 ![1, 0, 0] (partArr m c) slices_S2x1024x512_S1x1024x512_1_0_0) shapeCasts_S1x1024x512_S1024x512 : FVec Ideal S1024x512 .f32))

/-- The counts as 32-bit words. -/
abbrev cntArr (c : Dev nD) : S1024.Idx → BitVec 32 :=
  Host.scatter scatter_S1024_S65536x1_S65536_n_0_0_1 IntOp.addi (broadcastInDim S1024 ![] bcast_S_S1024 (constantI S_ 32 0#32))
    (broadcastInDim S65536x1 ![0] bcast_S65536_S65536x1_0 (wrapped (maxsi (broadcastInDim S65536 ![] bcast_S_S65536 (constantI S_ 32 0#32)) (m ((c.tc : Thread nD τ).loc main_arg1)))))
    (broadcastInDim S65536 ![] bcast_S_S65536 (constantI S_ 32 1#32))

theorem B4_v6 (c : Dev nD) : (B4 m c (Proc.devRef .tc main_v6) : S1024x512.Idx → EReal) = sumArr m c :=
  (StableHlo.after_of_writes_sub hostOps1_1 _ hostOps1_1_writes (by decide)).trans (ops1_v6 (B2 m c))

theorem B4_v7 (c : Dev nD) : (B4 m c (Proc.devRef .tc main_v7) : S1024.Idx → BitVec 32)
    = broadcastInDim S1024 ![] bcast_S_S1024 (constantI S_ 32 0#32) :=
  (StableHlo.after_of_writes_sub hostOps1_1 _ hostOps1_1_writes (by decide)).trans (ops1_v7 (B2 m c))

theorem B3_arg1 (c : Dev nD) : B3 m c (Proc.devRef .tc main_arg1) = m ((c.tc : Thread nD τ).loc main_arg1) :=
  calc B3 m c (Proc.devRef .tc main_arg1)
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl

theorem B4_v8 (c : Dev nD) : (B4 m c (Proc.devRef .tc main_v8) : S65536.Idx → BitVec 32)
    = maxsi (broadcastInDim S65536 ![] bcast_S_S65536 (constantI S_ 32 0#32)) (m ((c.tc : Thread nD τ).loc main_arg1)) := by
  rw [← B3_arg1 m c, ← ops1_c0 (B2 m c)]
  exact ops11_v8 (B3 m c)

/-- The prototype table as the operations' term of the partial sums and the labels. -/
theorem proto_eq (c : Dev nD) :
    protoArr m c = truncf .bf16 (Host.divf (F := Ideal) (sumArr m c)
          (broadcastInDim S1024x512 ![0, 1] bcast_S1024x1_S1024x512_0_1
            (maximumf (F := Ideal) (broadcastInDim S1024x1 ![0] bcast_S1024_S1024x1_0 (sitofp (F := Ideal) .f32 (cntArr m c)))
              (broadcastInDim S1024x1 ![] bcast_S_S1024x1 (constant (F := Ideal) S_ .f32 0x3F800000#32))))) bitsLt_bf16_f32 := by
  show B5 m c (Proc.devRef .tc main_v23) = _
  rw [B5_eq, opsC_v23, opsB_v23, opsA_v6, opsA_v16, B4_v6, B4_v7, B4_v8]

/-- The squared-norm row as the operations' term of the prototype table. -/
theorem psq_eq (c : Dev nD) :
    psqArr m c = transpose S1x1024 [1, 0] (broadcastInDim S1024x1 ![0] bcast_S1024_S1024x1_0
          (Host.reduceAdd (F := Ideal) (mulf (extf .f32 (protoArr m c) bitsLt_bf16_f32) (extf .f32 (protoArr m c) bitsLt_bf16_f32))
            (constant S_ .f32 0x00000000#32) reducesTo_S1024x512_S1024_d1 h_S_)) transposes_S1024x1_S1x1024_1_0 := by
  have e23 : protoArr m c = StableHlo.after opsB (StableHlo.after opsA (B4 m c)) (Proc.devRef .tc main_v23) := by
    show B5 m c (Proc.devRef .tc main_v23) = _
    rw [B5_eq, opsC_v23]
  show B5 m c (Proc.devRef .tc main_v28) = _
  rw [e23, B5_eq, opsC_v28]

/-! ### Reading at an index -/

/-- A half of the partial sums, sliced out and with its unit axis dropped, reads the partial sums at that half. -/
theorem half0_apply (P : S2x1024x512.Idx → EReal) (k : Fin 1024) (d : Fin 512) :
    shapeCast S1024x512 (extractStridedSlice S1x1024x512 ![0, 0, 0] P slices_S2x1024x512_S1x1024x512_0_0_0) shapeCasts_S1x1024x512_S1024x512 (ix2 k d)
      = P (ix3 (0 : Fin 2) k d) :=
  (shapeCast_1ab_ab_apply _ _ k d).trans (extractStridedSlice_apply _ _ _ (ix3 (0 : Fin 1) k d) (ix3 (0 : Fin 2) k d) fun ax =>
    match ax with
    | ⟨0, _⟩ => rfl
    | ⟨1, _⟩ => (Nat.zero_add _).symm
    | ⟨2, _⟩ => (Nat.zero_add _).symm)

theorem half1_apply (P : S2x1024x512.Idx → EReal) (k : Fin 1024) (d : Fin 512) :
    shapeCast S1024x512 (extractStridedSlice S1x1024x512 ![1, 0, 0] P slices_S2x1024x512_S1x1024x512_1_0_0) shapeCasts_S1x1024x512_S1024x512 (ix2 k d)
      = P (ix3 (1 : Fin 2) k d) :=
  (shapeCast_1ab_ab_apply _ _ k d).trans (extractStridedSlice_apply _ _ _ (ix3 (0 : Fin 1) k d) (ix3 (1 : Fin 2) k d) fun ax =>
    match ax with
    | ⟨0, _⟩ => rfl
    | ⟨1, _⟩ => (Nat.zero_add _).symm
    | ⟨2, _⟩ => (Nat.zero_add _).symm)

theorem sumArr_apply (c : Dev nD) (k : Fin 1024) (d : Fin 512) :
    sumArr m c (ix2 k d) = partArr m c (ix3 (0 : Fin 2) k d) + partArr m c (ix3 (1 : Fin 2) k d) := by
  unfold sumArr
  rw [addf_apply, half0_apply, half1_apply]

/-- The divisor broadcast along the features: at (k, d) it is max(count of k, 1). -/
theorem den_apply (c : Dev nD) (hy : ∀ n : Fin 65536, 0 ≤ (m ((c.tc : Thread nD τ).loc main_arg1) (ix1 n)).toInt) (k : Fin 1024) (d : Fin 512) :
    (broadcastInDim S1024x512 ![0, 1] bcast_S1024x1_S1024x512_0_1
        (maximumf (F := Ideal) (broadcastInDim S1024x1 ![0] bcast_S1024_S1024x1_0 (sitofp (F := Ideal) .f32 (cntArr m c)))
          (broadcastInDim S1024x1 ![] bcast_S_S1024x1 (constant (F := Ideal) S_ .f32 0x3F800000#32)))) (ix2 k d)
      = Cert.Spec.den (fun n => m ((c.tc : Thread nD τ).loc main_arg1) (ix1 n)) k := by
  rw [broadcastInDim_apply _ bcast_S1024x1_S1024x512_0_1 _ (ix2 k d) (ix2 k (0 : Fin 1)) (fun a => match a with
    | ⟨0, _⟩ => by show k.val = if (1024 : Nat) = 1 then 0 else k.val; rw [if_neg (by decide)]
    | ⟨1, _⟩ => by show 0 = if (1 : Nat) = 1 then 0 else d.val; rw [if_pos rfl])]
  rw [maximumf_apply]
  rw [broadcastInDim_apply _ bcast_S1024_S1024x1_0 _ (ix2 k (0 : Fin 1)) (ix1 k) (fun a => match a with
    | ⟨0, _⟩ => by show k.val = if (1024 : Nat) = 1 then 0 else k.val; rw [if_neg (by decide)])]
  rw [sitofp_apply]
  rw [show cntArr m c (ix1 k) = _ from count_apply (m ((c.tc : Thread nD τ).loc main_arg1)) hy k]
  exact den_of_count _ k

end ValHost

open ValHost

/-- the prototype table: the two halves of region 0's partial sums added and divided by max(count, 1) — for labels that are
    not negative the count of a class is the number of rows carrying it, -/
theorem E1_v23 (c : Dev nD) (hy : ∀ n : Fin 65536, 0 ≤ (m ((c.tc : Thread nD τ).loc main_arg1) (ix1 n)).toInt) (k : Fin 1024) (d : Fin 512) :
    protoArr m c (ix2 k d)
      = Ideal.div (partArr m c (ix3 (0 : Fin 2) k d) + partArr m c (ix3 (1 : Fin 2) k d))
          (Cert.Spec.den (fun n => m ((c.tc : Thread nD τ).loc main_arg1) (ix1 n)) k) := by
  rw [proto_eq m c, truncf_apply]
  refine (congrArg₂ Ideal.div (sumArr_apply m c k d) (den_apply m c hy k d))

/-- and the row of the prototypes' squared norms. -/
theorem E1_v28 (c : Dev nD) (k : Fin 1024) :
    psqArr m c (ix2 (0 : Fin 1) k) = ∑ d : Fin 512, protoArr m c (ix2 k d) * protoArr m c (ix2 k d) := by
  rw [psq_eq m c]
  generalize protoArr m c = P
  rw [transpose_ix2_apply]
  rw [broadcastInDim_apply _ bcast_S1024_S1024x1_0 _ (ix2 k (0 : Fin 1)) (ix1 k) (fun a => match a with
    | ⟨0, _⟩ => by show k.val = if (1024 : Nat) = 1 then 0 else k.val; rw [if_neg (by decide)])]
  simp only [Host.reduceAdd, Ideal.hostReduceAdd_def]
  rw [Ideal.hostReduceAdd_single reducesTo_S1024x512_S1024_d1 (by decide)]
  have h0 : (constant (F := Ideal) S_ .f32 0x00000000#32) (Shape.Idx.first h_S_) = (0 : EReal) := by
    show Ideal.ofBits .f32 0x00000000#32 = 0
    simp [Ideal.ofBits, Ideal.ieee]
  rw [h0, zero_add]
  refine Finset.sum_congr rfl fun d _ => ?_
  rw [mulf_apply, extf_apply]
  exact congrArg (fun i => P i * P i) (funext fun a => Fin.ext (by match a with | ⟨0, _⟩ => rfl | ⟨1, _⟩ => rfl))

end Cert.KernelIdeal.Hand

end
-- ==== Proof.RefVal.lean ====
/-
  The reference's result at the ideal instance, index by index: entry (n, k) of its result is the reference's logit
  of query n against the reference's prototype of class k. The two accumulating scatters read at an index: an update
  lands at class k exactly when its label, as a signed integer, is k (a label outside the range lands nowhere).
-/
import proofs.«401434_j37297495999027_3_alg».proof.Proof.Gen.ReferenceIdeal.Read
import proofs.«401434_j37297495999027_3_alg».proof.Proof.Spec
import proofs.«401434_j37297495999027_3_alg».proof.Proof.LibScatter
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.ReferenceIdeal.Read

/-! ## The four literals, as extended reals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num; rfl

theorem ofBits_neg_one : Ideal.ofBits .f32 0xBF800000#32 = -1 := by
  simp [Ideal.ofBits, Ideal.ieee, -EReal.coe_mul]; norm_num

/-! ## The column of start indices is the labels -/

theorem v1_col (x1 : (⟨S65536, .i32⟩ : BufTy).Contents (Elt Ideal)) (n : Fin 65536) :
    val_main_v1 (F := Ideal) x1 (ix2 n (0 : Fin 1)) = x1 (ix1 n) := by
  rw [val_main_v1_apply]
  exact congrArg x1 (funext fun a => Fin.ext (by match a with | ⟨0, _⟩ => rfl))

theorem v5_col (x1 : (⟨S65536, .i32⟩ : BufTy).Contents (Elt Ideal)) (n : Fin 65536) :
    val_main_v5 (F := Ideal) x1 (ix2 n (0 : Fin 1)) = x1 (ix1 n) := by
  rw [val_main_v5_apply]
  exact congrArg x1 (funext fun a => Fin.ext (by match a with | ⟨0, _⟩ => rfl))

/-! ## The two accumulating scatters at an index -/

/-- A sum of ones over a finite set is its cardinality. -/
theorem sum_one_eq_card {α : Type} (s : Finset α) : (∑ _j ∈ s, (1 : EReal)) = ((s.card : ℝ) : EReal) := by
  rw [Finset.sum_const, nsmul_one]; rfl

/-- The counting scatter at class k: the number of rows whose label is k. -/
theorem v6_at (x1 : (⟨S65536, .i32⟩ : BufTy).Contents (Elt Ideal)) (k : Fin 1024) :
    val_main_v6 (F := Ideal) x1 (ix1 k) = (((Cert.Spec.cnt (fun n => x1 (ix1 n)) k : ℕ) : ℝ) : EReal) := by
  have hc : ∀ j, val_main_v3 (F := Ideal) j = 1 := fun j => by
    rw [val_main_v3_apply, val_main_cst_0_apply, Ideal.ofBits_def, ofBits_one]
  have h0 : val_main_v4 (F := Ideal) (ix1 k) = 0 := by
    rw [val_main_v4_apply, val_main_cst_1_apply, Ideal.ofBits_def, ofBits_zero]
  unfold val_main_v6
  simp only [Host.scatterAdd, Ideal.hostScatterAdd_def]
  unfold Ideal.hostScatterAdd
  rw [h0, zero_add, Finset.sum_congr rfl (fun j _ => hc j), sum_one_eq_card]
  unfold Cert.Spec.cnt
  refine congrArg (fun c : ℕ => ((c : ℝ) : EReal)) ?_
  symm
  refine Finset.card_bij (fun n _ => ix1 n) ?_ ?_ ?_
  · intro n hn
    rw [Finset.mem_filter] at hn ⊢
    refine ⟨Finset.mem_univ _, ?_⟩
    rw [Cert.LibScatter.resultIdx?_col1 _ rfl rfl rfl rfl, v5_col]
    exact hn.2
  · intro a _ b _ h
    exact congrFun h 0
  · intro j hj
    obtain ⟨a, rfl⟩ : ∃ a : Fin 65536, j = ix1 a := ⟨j 0, eq_ix1 j⟩
    rw [Finset.mem_filter] at hj
    have hj2 := hj.2
    rw [Cert.LibScatter.resultIdx?_col1 _ rfl rfl rfl rfl, v5_col] at hj2
    exact ⟨a, Finset.mem_filter.mpr ⟨Finset.mem_univ _, hj2⟩, rfl⟩

/-- The summing scatter at (k, d): the rows whose label is k, summed at coordinate d. -/
theorem v2_at (x0 : (⟨S65536x512, .f32⟩ : BufTy).Contents (Elt Ideal)) (x1 : (⟨S65536, .i32⟩ : BufTy).Contents (Elt Ideal))
    (k : Fin 1024) (d : Fin 512) :
    val_main_v2 (F := Ideal) x0 x1 (ix2 k d) = Cert.Spec.segsum (fun n d => x0 (ix2 n d)) (fun n => x1 (ix1 n)) k d := by
  have h0 : val_main_v0 (F := Ideal) (ix2 k d) = 0 := by
    rw [val_main_v0_apply, val_main_cst_apply, Ideal.ofBits_def, ofBits_zero]
  unfold val_main_v2
  simp only [Host.scatterAdd, Ideal.hostScatterAdd_def]
  unfold Ideal.hostScatterAdd
  rw [h0, zero_add]
  unfold Cert.Spec.segsum
  symm
  refine Finset.sum_bij (fun n _ => ix2 n d) ?_ ?_ ?_ ?_
  · intro n hn
    rw [Finset.mem_filter] at hn ⊢
    refine ⟨Finset.mem_univ _, ?_⟩
    rw [Cert.LibScatter.resultIdx?_col2 _ rfl rfl rfl rfl, v1_col]
    exact ⟨hn.2, rfl⟩
  · intro a _ b _ h
    exact congrFun h 0
  · intro j hj
    obtain ⟨a, e, rfl⟩ : ∃ (a : Fin 65536) (e : Fin 512), j = ix2 a e := ⟨j 0, j 1, eq_ix2 j⟩
    rw [Finset.mem_filter] at hj
    have hj2 := hj.2
    rw [Cert.LibScatter.resultIdx?_col2 _ rfl rfl rfl rfl, v1_col] at hj2
    refine ⟨a, Finset.mem_filter.mpr ⟨Finset.mem_univ _, hj2.1⟩, ?_⟩
    rw [hj2.2]
  · intro n _
    rfl

/-! ## The prototype table -/

/-- The divisor at (k, d): max(count of class k, 1), whatever d. -/
theorem v10_at (x1 : (⟨S65536, .i32⟩ : BufTy).Contents (Elt Ideal)) (k : Fin 1024) (d : Fin 512) :
    val_main_v10 (F := Ideal) x1 (ix2 k d) = Cert.Spec.den (fun n => x1 (ix1 n)) k := by
  have h7 : val_main_v7 (F := Ideal) (ix1 k) = 1 := by
    rw [val_main_v7_apply, val_main_cst_2_apply, Ideal.ofBits_def, ofBits_one]
  have e9 : idx_main_v9 (idx_main_v10 (ix2 k d)) = ix1 k :=
    funext fun a => Fin.ext (by match a with | ⟨0, _⟩ => rfl)
  rw [val_main_v10_apply, val_main_v9_apply, e9, val_main_v8_apply, Ideal.maximumf_def, v6_at, h7]
  unfold Cert.Spec.den
  rw [Nat.cast_max, EReal.coe_strictMono.monotone.map_max, Nat.cast_one, EReal.coe_one]

/-- The reference's prototype at (k, d). -/
theorem v11_at (x0 : (⟨S65536x512, .f32⟩ : BufTy).Contents (Elt Ideal)) (x1 : (⟨S65536, .i32⟩ : BufTy).Contents (Elt Ideal))
    (k : Fin 1024) (d : Fin 512) :
    val_main_v11 (F := Ideal) x0 x1 (ix2 k d)
      = Cert.Spec.protoR (fun n d => x0 (ix2 n d)) (fun n => x1 (ix1 n)) k d := by
  rw [val_main_v11_apply, Ideal.hostDivf_def, v2_at, v10_at]
  rfl

/-- THE REFERENCE'S RESULT at entry (n, k). -/
theorem ref_apply (x0 : (⟨S65536x512, .f32⟩ : BufTy).Contents (Elt Ideal)) (x1 : (⟨S65536, .i32⟩ : BufTy).Contents (Elt Ideal))
    (x2 : (⟨S65536x512, .f32⟩ : BufTy).Contents (Elt Ideal)) (n : Fin 65536) (k : Fin 1024) :
    val_main_v26 (F := Ideal) x0 x1 x2 (ix2 n k)
      = Cert.Spec.logitR (fun n d => x2 (ix2 n d)) (Cert.Spec.protoR (fun n d => x0 (ix2 n d)) (fun n => x1 (ix1 n))) n k := by
  have e13 : ∀ d : Fin 512, idx_main_v13 (idx_main_v14 (idx_main_v19 (ix2 n k))) d = ix2 n d := fun d =>
    funext fun a => Fin.ext (by match a with | ⟨0, _⟩ => rfl | ⟨1, _⟩ => rfl)
  have e16 : ∀ d : Fin 512, idx_main_v16 (idx_main_v17 (idx_main_v20 (ix2 n k))) d = ix2 k d := fun d =>
    funext fun a => Fin.ext (by match a with | ⟨0, _⟩ => rfl | ⟨1, _⟩ => rfl)
  have el : ∀ d : Fin 512, lidx_main_v18 (ix2 n k) d = ix2 n d := fun d =>
    funext fun a => Fin.ext (by match a with | ⟨0, _⟩ => rfl | ⟨1, _⟩ => rfl)
  have er : ∀ d : Fin 512, ridx_main_v18 (ix2 n k) d = ix2 k d := fun d =>
    funext fun a => Fin.ext (by match a with | ⟨0, _⟩ => rfl | ⟨1, _⟩ => rfl)
  rw [val_main_v26_apply, val_main_v25_apply, val_main_cst_6_apply, val_main_v24_apply, val_main_v21_apply,
    val_main_v19_apply, val_main_v14_apply, val_main_v13_apply, val_main_cst_3_apply,
    val_main_v20_apply, val_main_v17_apply, val_main_v16_apply, val_main_cst_4_apply,
    val_main_v23_apply, val_main_v22_apply, val_main_cst_5_apply, val_main_v18_apply]
  simp only [val_main_v12_apply, val_main_v15_apply, e13, e16, el, er, v11_at, Ideal.mulf_def, Ideal.addf_def,
    Ideal.subf_def, Ideal.ofBits_def, ofBits_zero, ofBits_two, ofBits_neg_one, zero_add]
  rfl

end Cert.ReferenceIdeal.RefValue

end
-- ==== Proof.PreRead.lean ====
/-
  The precondition, read: every support and query feature is a real number (its absolute value is below +∞), and
  every label is not negative as a signed integer.
-/
import proofs.«401434_j37297495999027_3_alg».proof.Proof.Gen.Pre_finite_inputs
import proofs.«401434_j37297495999027_3_alg».proof.Pre_finite_inputs
import Idealize.ShloMosaic.Lib.ValueIdx
import Idealize.ShloMosaic.Lib.ReduceAll
import Idealize.ShloMosaic.Lib.StableHlo.Predicate

set_option maxRecDepth 16384

noncomputable section

open scoped BigOperators

namespace Cert.PreRead

open Idealize.ShloMosaic Idealize.ShloMosaic.TcCoe Idealize.ShloMosaic.ValueIdx
open Idealize.SL Idealize.SL.Sem
open Cert.Pre_finite_inputs

variable [Cert.Pre_finite_inputs.Facts]

/-- The scalar shape has one index. -/
instance subsingleton_scalar_idx : Subsingleton S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max(x, −x) is below +∞ is a real number: −∞ and +∞ both have
    absolute value +∞. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- What the printed precondition says of its three arguments when it is all ones. -/
theorem pre_read (a0 : FVec Ideal S65536x512 .f32) (a1 : IVec S65536 32) (a2 : FVec Ideal S65536x512 .f32)
    (h : Cert.Pre_finite_inputs.fn (F := Ideal) a0 a1 a2 = fun _ => 1#1) :
    (∀ (n : Fin 65536) (d : Fin 512), ∃ r : ℝ, a0 (ix2 n d) = (r : EReal))
    ∧ (∀ n : Fin 65536, 0 ≤ (a1 (ix1 n)).toInt)
    ∧ (∀ (n : Fin 65536) (d : Fin 512), ∃ r : ℝ, a2 (ix2 n d) = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun n d => ?_, fun n => ?_, fun n d => ?_⟩
  · exact real_of_abs_lt _ (Host.reduce_andi_all _ _ _ _ _ h1 (ix2 n d))
  · have e := Host.reduce_andi_all _ _ _ _ _ h3 (ix1 n)
    have e' := IntOp.cmpi_sge.1 e
    exact e'
  · exact real_of_abs_lt _ (Host.reduce_andi_all _ _ _ _ _ h2 (ix2 n d))

end Cert.PreRead

end
-- ==== Proof.lean ====
/-
  The certificate of the prototype-distance kernel against its reference, over the extended reals.
  Kernel: per-class partial sums of the support rows by a one-hot matrix product accumulated over the tiles of each
  half of the rows (region 0); the two halves added, divided by max(count, 1), the count an integer histogram of the
  labels; the logits 2 q·p − ‖q‖² − ‖p‖² tile by tile (region 1). Reference: segment sums and counts by accumulating
  scatters, the same division, the logits −(‖q‖² + ‖p‖² − 2 q·p).
  Under the precondition (support and query features finite, labels not negative) both programs end with the same
  array: the class sums agree by reordering a finite sum, the counts agree because a label that is not negative
  is counted under its own class by both, and the two forms of the logit agree on real numbers.
  The three frames: the two kernel programs by the run of their segments (host stretches and the two pipelined
  regions, region 0 carrying its running sum between grid points), the reference by its run.
-/
import proofs.«401434_j37297495999027_3_alg».proof.Defs
import proofs.«401434_j37297495999027_3_alg».proof.Proof.Gen.Kernel
import proofs.«401434_j37297495999027_3_alg».proof.Proof.Gen.KernelIdeal
import proofs.«401434_j37297495999027_3_alg».proof.Proof.Gen.ReferenceIdeal
import proofs.«401434_j37297495999027_3_alg».proof.Proof.Gen.ReferenceIdeal.Run
import proofs.«401434_j37297495999027_3_alg».proof.Proof.Gen.ReferenceIdeal.Read
import proofs.«401434_j37297495999027_3_alg».proof.Proof.Gen.Pre_finite_inputs
import proofs.«401434_j37297495999027_3_alg».proof.Proof.Run
import proofs.«401434_j37297495999027_3_alg».proof.Proof.Bits.Run
import proofs.«401434_j37297495999027_3_alg».proof.Proof.ValR0
import proofs.«401434_j37297495999027_3_alg».proof.Proof.ValR1
import proofs.«401434_j37297495999027_3_alg».proof.Proof.ValHost
import proofs.«401434_j37297495999027_3_alg».proof.Proof.RefVal
import proofs.«401434_j37297495999027_3_alg».proof.Proof.PreRead
import proofs.«401434_j37297495999027_3_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

section Kernel

open Cert.KernelIdeal Cert.KernelIdeal.Gen Cert.KernelIdeal.Hand

variable [Cert.KernelIdeal.Facts] [Cert.Pre_finite_inputs.Facts]

/-- The support features, the labels and the query features of a launch memory, by coordinates. -/
abbrev zOf (m : (ℓ : Loc nD τ sig) → Buf (Elt Ideal) ℓ) (c : Dev nD) : Fin 65536 → Fin 512 → EReal :=
  fun n d => m ((c.tc : Thread nD τ).loc main_arg0) (ix2 n d)
abbrev yOf (m : (ℓ : Loc nD τ sig) → Buf (Elt Ideal) ℓ) (c : Dev nD) : Fin 65536 → BitVec 32 :=
  fun n => m ((c.tc : Thread nD τ).loc main_arg1) (ix1 n)
abbrev qOf (m : (ℓ : Loc nD τ sig) → Buf (Elt Ideal) ℓ) (c : Dev nD) : Fin 65536 → Fin 512 → EReal :=
  fun n d => m ((c.tc : Thread nD τ).loc main_arg2) (ix2 n d)

/-- The result both programs end with: the reference's logit against the reference's prototypes. -/
abbrev resultOf (m : (ℓ : Loc nD τ sig) → Buf (Elt Ideal) ℓ) (c : Dev nD) : S65536x1024.Idx → EReal :=
  fun i => Cert.Spec.logitR (qOf m c) (Cert.Spec.protoR (zOf m c) (yOf m c)) (i 0) (i 1)

/-- The prototype table region 1 is entered with is the specification's (kernel form), when no label is negative. -/
theorem protos_eq (m : (ℓ : Loc nD τ sig) → Buf (Elt Ideal) ℓ) (c : Dev nD) (hy : ∀ n : Fin 65536, 0 ≤ (yOf m c n).toInt) (k : Fin 1024) (d : Fin 512) :
    protoArr m c (ix2 k d) = Cert.Spec.protoK (zOf m c) (yOf m c) k d := by
  rw [E1_v23 m c hy k d]
  unfold Cert.Spec.protoK
  have hp : ∀ r : Fin 2, partArr m c (ix3 r k d) = Cert.Spec.part (zOf m c) (yOf m c) r k d := fun r => by
    rw [show partArr m c (ix3 r k d) = (dat0 (F := Ideal) (E0 m) c).arrAt 2 cfg0.N (ix3 r k d) from congrFun (B2_arr m c 2) _,
      partial_apply (E0 m) c r k d]
    have ez : (fun n d => E0 m c main_arg0 (ix2 n d)) = zOf m c := by funext n d'; rw [E0_arg0 m c]
    have ey : (fun n => E0 m c main_v0 (ix2 (0 : Fin 1) n)) = yOf m c := by funext n; exact E0_v0 m c n
    rw [ez, ey]
  rw [hp 0, hp 1]

/-- THE KERNEL'S RESULT under the precondition. -/
theorem kernel_result (m : (ℓ : Loc nD τ sig) → Buf (Elt Ideal) ℓ) (hpre : Cert.Pre_KernelIdeal m) (c : Dev nD) :
    (dat1 (F := Ideal) (E1 m) c).arrAt 3 cfg1.N = resultOf m c := by
  obtain ⟨hz, hy, hq⟩ := Cert.PreRead.pre_read _ _ _ (hpre c)
  funext i
  obtain ⟨n, k, rfl⟩ : ∃ (n : Fin 65536) (k : Fin 1024), i = ix2 n k := ⟨i 0, i 1, eq_ix2 i⟩
  rw [logits_apply (E1 m) c n k]
  show Cert.Spec.logitK (fun n d => E1 m c main_arg2 (ix2 n d)) (fun k d => protoArr m c (ix2 k d)) (fun k => psqArr m c (ix2 (0 : Fin 1) k)) n k = _
  have e2 : (fun n d => E1 m c main_arg2 (ix2 n d)) = qOf m c := by funext n d; rw [E1_arg2 m c]
  have e23 : (fun k d => protoArr m c (ix2 k d)) = Cert.Spec.protoR (zOf m c) (yOf m c) := by
    funext k d; rw [← Cert.Spec.protoK_eq_protoR]; exact protos_eq m c hy k d
  have e28 : (fun k => psqArr m c (ix2 (0 : Fin 1) k)) = fun k => ∑ d : Fin 512, Cert.Spec.protoR (zOf m c) (yOf m c) k d * Cert.Spec.protoR (zOf m c) (yOf m c) k d := by
    funext k
    rw [E1_v28 m c k]
    refine Finset.sum_congr rfl fun d _ => ?_
    rw [protos_eq m c hy k d, Cert.Spec.protoK_eq_protoR]
  rw [e2, e23, e28]
  exact Cert.Spec.logitK_eq_logitR (qOf m c) hq _ (Cert.Spec.protoR_real (zOf m c) hz (yOf m c)) n k

end Kernel

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both programs, run from memories agreeing on the arguments, end with the reference-form logits array. -/
theorem algebraic : Cert.algebraic_KernelIdeal_ReferenceIdeal := by
  intro m ρ m' ρ' hpre hagree
  refine ⟨fun c => resultOf m c, ?_, ?_⟩
  · exact (θ_run Cert.KernelIdeal.defs _ _).mono (fun r h c => ⟨(h c).1.trans (kernel_result m hpre c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2]
    funext i
    obtain ⟨n, k, rfl⟩ : ∃ (n : Fin 65536) (k : Fin 1024), i = ix2 n k := ⟨i 0, i 1, eq_ix2 i⟩
    exact Cert.ReferenceIdeal.RefValue.ref_apply _ _ _ n k

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
